-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4x2048x2048 : Shape := ⟨3, ![4, 2048, 2048]⟩
abbrev S4096x4096 : Shape := ⟨2, ![4096, 4096]⟩
abbrev S4096 : Shape := ⟨1, ![4096]⟩
abbrev S2048x4096 : Shape := ⟨2, ![2048, 4096]⟩
abbrev S1x1x4096 : Shape := ⟨3, ![1, 1, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S2048x4096 : S_.BroadcastsInDim S2048x4096 (![] : Fin 0 → Fin S2048x4096.rank)
  reducesTo_S2048x4096_S_d0_1 : S2048x4096.ReducesTo [0, 1] S_
  bcast_S_S1x1x4096 : S_.BroadcastsInDim S1x1x4096 (![] : Fin 0 → Fin S1x1x4096.rank)
  reducesTo_S1x1x4096_S_d0_1_2 : S1x1x4096.ReducesTo [0, 1, 2] S_

variable [Facts]

def fn_part2 {F : FTy → Type} [FloatOps F] (main_arg7 : FVec F S4096 .f32) (main_arg8 : FVec F S4096 .f32) (main_arg9 : FVec F S1x1x4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S1x1x4096 .f32 := Host.absf main_arg9
  let main_cst_16 : FVec F S_ .f32 := constant S_ .f32 0x7F800000#32
  let main_v45 : FVec F S1x1x4096 .f32 := broadcastInDim S1x1x4096 ![] bcast_S_S1x1x4096 main_cst_16
  let main_v46 : IVec S1x1x4096 1 := cmpf .olt main_v44 main_v45
  let main_c_17 : IVec S_ 1 := constantI S_ 1 1#1
  let main_v47 : IVec S_ 1 := (fun x v => Host.reduce IntOp.andi x v reducesTo_S1x1x4096_S_d0_1_2 h_S_) main_v46 main_c_17
  let main_v48 : IVec S_ 1 := andi main_v43 main_v47
  main_v48

def fn_part1 {F : FTy → Type} [FloatOps F] (main_arg4 : FVec F S4096 .f32) (main_arg5 : FVec F S2048x4096 .f32) (main_arg6 : FVec F S4096 .f32) (main_arg7 : FVec F S4096 .f32) (main_arg8 : FVec F S4096 .f32) (main_arg9 : FVec F S1x1x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_v33

def fn {F : FTy → Type} [FloatOps F] (main_arg0 : FVec F S4x2048x4096 .f32) (main_arg1 : FVec F S4x2048x2048 .f32) (main_arg2 : FVec F S4x2048x4096 .f32) (main_arg3 : FVec F S4096x4096 .f32) (main_arg4 : FVec F S4096 .f32) (main_arg5 : FVec F S2048x4096 .f32) (main_arg6 : FVec F S4096 .f32) (main_arg7 : FVec F S4096 .f32) (main_arg8 : FVec F S4096 .f32) (main_arg9 : FVec F S1x1x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4x2048x2048 .f32 := Host.absf main_arg1
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : IVec S_ 1 := andi main_v3 main_v7
  let main_v9 : FVec F S4x2048x4096 .f32 := Host.absf main_arg2
  let main_cst_2 : FVec F S_ .f32 := constant S_ .f32 0x7F800000#32
  let main_v10 : FVec F S4x2048x4096 .f32 := broadcastInDim S4x2048x4096 ![] bcast_S_S4x2048x4096 main_cst_2
  let main_v11 : IVec S4x2048x4096 1 := cmpf .olt main_v9 main_v10
  let main_c_3 : IVec S_ 1 := constantI S_ 1 1#1
  let main_v12 : IVec S_ 1 := (fun x v => Host.reduce IntOp.andi x v reducesTo_S4x2048x4096_S_d0_1_2 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_v13 main_v16
-- ==== Kernel.lean ====
abbrev S4x2048x4096 : Shape := ⟨3, ![4, 2048, 4096]⟩
abbrev S4x2048x2048 : Shape := ⟨3, ![4, 2048, 2048]⟩
abbrev S4096x4096 : Shape := ⟨2, ![4096, 4096]⟩
abbrev S4096 : Shape := ⟨1, ![4096]⟩
abbrev S2048x4096 : Shape := ⟨2, ![2048, 4096]⟩
abbrev S1x1x4096 : Shape := ⟨3, ![1, 1, 4096]⟩
abbrev S8192x4096 : Shape := ⟨2, ![8192, 4096]⟩
abbrev S8192x2048 : Shape := ⟨2, ![8192, 2048]⟩
abbrev S_ : Shape := ⟨0, ![]⟩
abbrev S1x4096 : Shape := ⟨2, ![1, 4096]⟩
abbrev S1024x1024 : Shape := ⟨2, ![1024, 1024]⟩
abbrev S1024x512 : Shape := ⟨2, ![1024, 512]⟩
abbrev S1x512 : Shape := ⟨2, ![1, 512]⟩

abbrev nBuf : Space → Nat
  | .hbm => 35
  | .vmem => 20
  | .smem => 0
  | _ => 0

abbrev bufTy : (tb : Table) → Fin (tcTables nBuf tb) → BufTy
  | .hbm, ⟨0, _⟩ => ⟨S4x2048x4096, .f32⟩
  | .hbm, ⟨1, _⟩ => ⟨S4x2048x2048, .f32⟩
  | .hbm, ⟨2, _⟩ => ⟨S4x2048x4096, .f32⟩
  | .hbm, ⟨3, _⟩ => ⟨S4096x4096, .f32⟩
  | .hbm, ⟨4, _⟩ => ⟨S4096, .f32⟩
  | .hbm, ⟨5, _⟩ => ⟨S2048x4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S1x1x4096, .f32⟩
  | .hbm, ⟨10, _⟩ => ⟨S8192x4096, .f32⟩
  | .hbm, ⟨11, _⟩ => ⟨S8192x2048, .f32⟩
  | .hbm, ⟨12, _⟩ => ⟨S8192x4096, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x1024, .f32⟩
  | .local _ .vmem, ⟨8, _⟩ => ⟨S1024x1024, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1x512, .f32⟩
  | .local _ .vmem, ⟨16, _⟩ => ⟨S1x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 8, 2], ![false, false, false]⟩

def k1_cond2 (i : grid1.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S4x2048x4096_S8192x4096 : S4x2048x4096.ShapeCasts S8192x4096
  shapeCasts_S4x2048x2048_S8192x2048 : S4x2048x2048.ShapeCasts S8192x2048
  shapeCasts_S1x1x4096_S4096 : S1x1x4096.ShapeCasts S4096
  bcast_S_S4096 : S_.BroadcastsInDim S4096 (![] : Fin 0 → Fin S4096.rank)
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S8192x4096_S4x2048x4096 : S8192x4096.ShapeCasts S4x2048x4096
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x4096.size a
  hwx0_2 : ∀ i : grid0.Coords, EltTy.bits .f32 = 32 ∨ (Rect.block (s := S8192x4096) S1024x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x2048.size a
  hwx1_0 : ∀ i : grid1.Coords, EltTy.bits .f32 = 32 ∨ (Rect.block (s := S8192x2048) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S2048x4096.size a
  hwx1_1 : ∀ i : grid1.Coords, EltTy.bits .f32 = 32 ∨ (Rect.block (s := S2048x4096) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x4096.size a
  hwx1_2 : ∀ i : grid1.Coords, EltTy.bits .f32 = 32 ∨ (Rect.block (s := S8192x4096) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x4096.size a
  hwx1_3 : ∀ i : grid1.Coords, EltTy.bits .f32 = 32 ∨ (Rect.block (s := S8192x4096) S1024x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x4096.size a
  hwx1_4 : ∀ i : grid1.Coords, EltTy.bits .f32 = 32 ∨ (Rect.block (s := S1x4096) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S8192x4096.size a
  hwx1_5 : ∀ i : grid1.Coords, EltTy.bits .f32 = 32 ∨ (Rect.block (s := S8192x4096) S1024x512.size (cc1_transform_5 i) (hinb1_5 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1024x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4x2048x2048 : Shape := ⟨3, ![4, 2048, 2048]⟩
abbrev S4096x4096 : Shape := ⟨2, ![4096, 4096]⟩
abbrev S4096 : Shape := ⟨1, ![4096]⟩
abbrev S2048x4096 : Shape := ⟨2, ![2048, 4096]⟩
abbrev S1x1x4096 : Shape := ⟨3, ![1, 1, 4096]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x2048, .f32⟩
  | .hbm, ⟨2, _⟩ => ⟨S4x2048x4096, .f32⟩
  | .hbm, ⟨3, _⟩ => ⟨S4096x4096, .f32⟩
  | .hbm, ⟨4, _⟩ => ⟨S4096, .f32⟩
  | .hbm, ⟨5, _⟩ => ⟨S2048x4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S1x1x4096, .f32⟩
  | .hbm, ⟨10, _⟩ => ⟨S4x2048x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | .hbm, ⟨18, _⟩ => ⟨S4x2048x4096, .f32⟩
  | .hbm, ⟨19, _⟩ => ⟨S_, .f32⟩
  | .hbm, ⟨20, _⟩ => ⟨S4x2048x4096, .f32⟩
  | .hbm, ⟨21, _⟩ => ⟨S4x2048x4096, .f32⟩
  | .hbm, ⟨22, _⟩ => ⟨S1x1x4096, .f32⟩
  | .hbm, ⟨23, _⟩ => ⟨S4x2048x4096, .f32⟩
  | .hbm, ⟨24, _⟩ => ⟨S4x2048x4096, .f32⟩
  | .hbm, ⟨25, _⟩ => ⟨S_, .f32⟩
  | .hbm, ⟨26, _⟩ => ⟨S4x2048x4096, .f32⟩
  | .hbm, ⟨27, _⟩ => ⟨S4x2048x4096, .f32⟩
  | .hbm, ⟨28, _⟩ => ⟨S4x2048x4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S1x1x4096, .f32⟩
  | .hbm, ⟨33, _⟩ => ⟨S4x2048x4096, .f32⟩
  | .hbm, ⟨34, _⟩ => ⟨S4x2048x4096, .f32⟩
  | .hbm, ⟨35, _⟩ => ⟨S1x1x4096, .f32⟩
  | .hbm, ⟨36, _⟩ => ⟨S_, .f32⟩
  | .hbm, ⟨37, _⟩ => ⟨S1x1x4096, .f32⟩
  | .hbm, ⟨38, _⟩ => ⟨S1x1x4096, .f32⟩
  | .hbm, ⟨39, _⟩ => ⟨S4x2048x4096, .f32⟩
  | .hbm, ⟨40, _⟩ => ⟨S4x2048x4096, .f32⟩
  | .hbm, ⟨41, _⟩ => ⟨S4x2048x4096, .f32⟩
  | .hbm, ⟨42, _⟩ => ⟨S_, .f32⟩
  | .hbm, ⟨43, _⟩ => ⟨S4x2048x4096, .f32⟩
  | .hbm, ⟨44, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  bcast_S_S4096 : S_.BroadcastsInDim S4096 (![] : Fin 0 → Fin S4096.rank)
  bcast_S_S1x1x4096 : S_.BroadcastsInDim S1x1x4096 (![] : Fin 0 → Fin S1x1x4096.rank)
  dot_S4x2048x4096_S4096x4096_S4x2048x4096_2_0_01_1_n_n_wf : DotDims.WF S4x2048x4096 S4096x4096 S4x2048x4096 [2] [0] [0, 1] [1] [] []
  dot_S4x2048x2048_S2048x4096_S4x2048x4096_2_0_01_1_n_n_wf : DotDims.WF S4x2048x2048 S2048x4096 S4x2048x4096 [2] [0] [0, 1] [1] [] []

variable [Facts₀]

def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf
def dot_S4x2048x2048_S2048x4096_S4x2048x4096_2_0_01_1_n_n : DotDims S4x2048x2048 S2048x4096 S4x2048x4096 where
  lhsContracting := [2]
  rhsContracting := [0]
  lhsNonContracting := [0, 1]
  rhsNonContracting := [1]
  lhsBatch := []
  rhsBatch := []
  wf := dot_S4x2048x2048_S2048x4096_S4x2048x4096_2_0_01_1_n_n_wf

class Facts : Prop extends Facts₀ where

variable [Facts]
-- ==== Proof.K.Body0.lean ====
/-
  The body of the first matrix product, case by case.

  The kernel keeps a running sum in a scratch block. At a grid point whose last coordinate is 0 it first fills the
  scratch with zeros; at every point it adds the product of the two input blocks to the scratch; at a point whose
  last coordinate is 3 it also stores one half of the scratch into the output block. On whole staging blocks the
  three combinations the grid meets leave:
    * first step:   scratch = 0 + x·w,             output block untouched;
    * middle step:  scratch = s + x·w,             output block untouched;
    * last step:    scratch = s + x·w,             output block = (1/2)·(s + x·w),
  with s what the scratch held before. The input blocks are read and left as they were.
-/
import proofs.«125389_j10041633538618_1_alg».proof.Proof.Gen.Kernel.Launch
import proofs.«125389_j10041633538618_1_alg».proof.Proof.Gen.Kernel.Skeleton
import proofs.«125389_j10041633538618_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's first branch: the last grid coordinate is 0. -/
abbrev cond0_0 (i : grid0.Coords) : Prop := (Scalar.cmpi .ne (Scalar.extui (Scalar.cmpi .eq (BitVec.ofNat 32 (i 2).val) 0#32)) 0#32) = 1#1
/-- The kernel's second branch: the last grid coordinate is 3. -/
abbrev cond0_1 (i : grid0.Coords) : Prop := k0_cond2 i = 1#1

/-- The offsets of a whole-block access are all zero. -/
theorem hz2 : (![0, 0] : Fin 2 → Nat) = fun _ => 0 := by funext a; fin_cases a <;> rfl

/-- The scratch after a step that began from contents `s`: `s` plus the product of the blocks. -/
abbrev acc0 (x : Vec F S1024x1024 .f32) (w : Vec F S1024x512 .f32) (s : Vec F S1024x512 .f32) : Vec F S1024x512 .f32 := k0_pay2 x w s

set_option maxHeartbeats 1000000 in
/-- First step: the scratch, whatever it held, ends at zero plus the product; the output block is not stored into. -/
theorem body0_first (c : Dev nD) (i : grid0.Coords) (E : Set ℕ)
    (arg3 : Memref sig .tc .vmem S1024x1024 .f32) (harg3 : arg3.IsWhole) (arg4 : Memref sig .tc .vmem S1024x512 .f32) (harg4 : arg4.IsWhole)
    (arg5 : Memref sig .tc .vmem S1024x512 .f32) (harg5 : arg5.IsWhole) (arg6 : Memref sig .tc .vmem S1024x512 .f32) (harg6 : arg6.IsWhole)
    (hc0 : cond0_0 i) (hc1 : ¬cond0_1 i)
    (x : Vec F S1024x1024 .f32) (w : Vec F S1024x512 .f32) (o : Vec F S1024x512 .f32) (K : PUnit → sProp 𝕄) :
    iprop(owns (c : Thread nD τ) arg3 fullShare x ∗ owns (c : Thread nD τ) arg4 fullShare w ∗ owns (c : Thread nD τ) arg5 fullShare o
        ∗ (∃ d, owns (c : Thread nD τ) arg6 fullShare d)
        ∗ (iprop(owns (c : Thread nD τ) arg3 fullShare x ∗ owns (c : Thread nD τ) arg4 fullShare w ∗ owns (c : Thread nD τ) arg5 fullShare o
            ∗ owns (c : Thread nD τ) arg6 fullShare (acc0 x w (k0_pay1 (F := F)))) -∗ K ⟨⟩))
      ⊢ wp frame (wpE (defs₀ (F := F)) Variants.none c none) E (cc0__mm1_kernel i arg3 harg3 arg4 harg4 arg5 harg5 arg6 harg6) K := by
  simp only [cc0__mm1_kernel_eq_skeleton]; unfold cc0__mm1_kernel_skel
  unfold owns
  iintro ⟨⟨%f3, %hf3, H3⟩, ⟨%f4, %hf4, H4⟩, ⟨%f5, %hf5, H5⟩, ⟨%d6, %f6, -, H6⟩, Hk⟩
  obtain rfl := harg3.eq_unread hf3; obtain rfl := harg4.eq_unread hf4
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact H6
  ipureintro
  sl_unfold_words
  rw [View.read_writes_eq_canon _ _ _ (fun y => ⟨_, List.mem_cons_self, View.mem_set_unit_zero hz2 inb_S1024x512_S1024x512_0_0 y⟩),
    View.canon_cons_unit_zero (S := S1024x512) hz2]
  simp only [View.readAt_eq_ld, Memref.IsWhole.read_unread, View.ld_unit_zero (S := S1024x1024) hz2,
    View.ld_unit_zero (S := S1024x512) hz2, View.readCov_unit_zero (S := S1024x512) _ hz2]

set_option maxHeartbeats 1000000 in
/-- Middle step: the scratch goes from `s` to `s` plus the product; the output block is not stored into. -/
theorem body0_middle (c : Dev nD) (i : grid0.Coords) (E : Set ℕ)
    (arg3 : Memref sig .tc .vmem S1024x1024 .f32) (harg3 : arg3.IsWhole) (arg4 : Memref sig .tc .vmem S1024x512 .f32) (harg4 : arg4.IsWhole)
    (arg5 : Memref sig .tc .vmem S1024x512 .f32) (harg5 : arg5.IsWhole) (arg6 : Memref sig .tc .vmem S1024x512 .f32) (harg6 : arg6.IsWhole)
    (hc0 : ¬cond0_0 i) (hc1 : ¬cond0_1 i)
    (x : Vec F S1024x1024 .f32) (w : Vec F S1024x512 .f32) (o : Vec F S1024x512 .f32) (s : Vec F S1024x512 .f32) (K : PUnit → sProp 𝕄) :
    iprop(owns (c : Thread nD τ) arg3 fullShare x ∗ owns (c : Thread nD τ) arg4 fullShare w ∗ owns (c : Thread nD τ) arg5 fullShare o
        ∗ owns (c : Thread nD τ) arg6 fullShare s
        ∗ (iprop(owns (c : Thread nD τ) arg3 fullShare x ∗ owns (c : Thread nD τ) arg4 fullShare w ∗ owns (c : Thread nD τ) arg5 fullShare o
            ∗ owns (c : Thread nD τ) arg6 fullShare (acc0 x w s)) -∗ K ⟨⟩))
      ⊢ wp frame (wpE (defs₀ (F := F)) Variants.none c none) E (cc0__mm1_kernel i arg3 harg3 arg4 harg4 arg5 harg5 arg6 harg6) K := by
  simp only [cc0__mm1_kernel_eq_skeleton]; unfold cc0__mm1_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact H6
  ipureintro
  sl_unfold_words
  rw [View.read_writes_eq_canon _ _ _ (fun y => ⟨_, List.mem_cons_self, View.mem_set_unit_zero hz2 inb_S1024x512_S1024x512_0_0 y⟩),
    View.canon_unit_zero (S := S1024x512) hz2]
  simp only [View.readAt_eq_ld, Memref.IsWhole.read_unread, View.ld_unit_zero (S := S1024x1024) hz2,
    View.ld_unit_zero (S := S1024x512) hz2]

set_option maxHeartbeats 1000000 in
/-- Last step: the scratch goes from `s` to `s` plus the product, and the output block, whatever it held, ends at
    one half of that. -/
theorem body0_last (c : Dev nD) (i : grid0.Coords) (E : Set ℕ)
    (arg3 : Memref sig .tc .vmem S1024x1024 .f32) (harg3 : arg3.IsWhole) (arg4 : Memref sig .tc .vmem S1024x512 .f32) (harg4 : arg4.IsWhole)
    (arg5 : Memref sig .tc .vmem S1024x512 .f32) (harg5 : arg5.IsWhole) (arg6 : Memref sig .tc .vmem S1024x512 .f32) (harg6 : arg6.IsWhole)
    (hc0 : ¬cond0_0 i) (hc1 : cond0_1 i)
    (x : Vec F S1024x1024 .f32) (w : Vec F S1024x512 .f32) (s : Vec F S1024x512 .f32) (K : PUnit → sProp 𝕄) :
    iprop(owns (c : Thread nD τ) arg3 fullShare x ∗ owns (c : Thread nD τ) arg4 fullShare w ∗ (∃ d, owns (c : Thread nD τ) arg5 fullShare d)
        ∗ owns (c : Thread nD τ) arg6 fullShare s
        ∗ (iprop(owns (c : Thread nD τ) arg3 fullShare x ∗ owns (c : Thread nD τ) arg4 fullShare w
            ∗ owns (c : Thread nD τ) arg5 fullShare (k0_pay3 (acc0 x w s))
            ∗ owns (c : Thread nD τ) arg6 fullShare (acc0 x w s)) -∗ K ⟨⟩))
      ⊢ wp frame (wpE (defs₀ (F := F)) Variants.none c none) E (cc0__mm1_kernel i arg3 harg3 arg4 harg4 arg5 harg5 arg6 harg6) K := by
  simp only [cc0__mm1_kernel_eq_skeleton]; unfold cc0__mm1_kernel_skel
  unfold owns
  iintro ⟨⟨%f3, %hf3, H3⟩, ⟨%f4, %hf4, H4⟩, ⟨%d5, %f5, -, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [View.read_writes_eq_canon _ _ _ (fun y => ⟨_, List.mem_cons_self, View.mem_set_unit_zero hz2 inb_S1024x512_S1024x512_0_0 y⟩),
      View.canon_unit_zero (S := S1024x512) hz2]
    simp only [View.readAt_eq_ld, Memref.IsWhole.read_unread, View.ld_unit_zero (S := S1024x1024) hz2,
      View.ld_unit_zero (S := S1024x512) hz2, View.readCov_unit_zero (S := S1024x512) _ hz2]
  iexists _; isplitr
  swap; · iexact H6
  ipureintro
  sl_unfold_words
  rw [View.read_writes_eq_canon _ _ _ (fun y => ⟨_, List.mem_cons_self, View.mem_set_unit_zero hz2 inb_S1024x512_S1024x512_0_0 y⟩),
    View.canon_unit_zero (S := S1024x512) hz2]
  simp only [View.readAt_eq_ld, Memref.IsWhole.read_unread, View.ld_unit_zero (S := S1024x1024) hz2,
    View.ld_unit_zero (S := S1024x512) hz2]

end Cert.Kernel.Hand

end
-- ==== Proof.K.Dat0.lean ====
/-
  The proof data of the first matrix product's region.

  The grid has 8 × 8 × 4 points, the last coordinate fastest, so point t is step t mod 4 of an output block's
  accumulation. After point t the scratch holds the sum, over the steps of that block up to t, of the products of the
  input blocks, starting from zero at step 0 (`accAt0`). The output block is stored only at step 3, as one half of the
  scratch, and is written back only there; at the other steps its staging block is handed back untouched. The region
  invariant before point t is: the scratch at `accAt0 (t-1)` (anything before the first point), the other scoped
  buffers at anything, the generator register at some state.
-/
import proofs.«125389_j10041633538618_1_alg».proof.Proof.Gen.Kernel.Launch
import proofs.«125389_j10041633538618_1_alg».proof.Proof.Gen.Kernel.Skeleton
import proofs.«125389_j10041633538618_1_alg».proof.Proof.Gen.Kernel.Points
import proofs.«125389_j10041633538618_1_alg».proof.Proof.K.Body0
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's block and the right operand's block at point `t`. -/
abbrev xblk0 (c : Dev nD) (t : Fin cfg0.N) : Vec F S1024x1024 .f32 := iblk0 V c 0 t
abbrev wblk0 (c : Dev nD) (t : Fin cfg0.N) : Vec F S1024x512 .f32 := iblk0 V c 1 t

/-- An input window's staging block holds its block of the array at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions over the grid, and where the output window is idle -/

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬ t.val % 4 = 3 → cfg0.idle 2 (grid0.coords t) = true := by decide +kernel
theorem noFlush0_2 : ∀ t : Fin cfg0.N, ¬ t.val % 4 = 3 → (cfg0.win 2).flush t = false := by decide +kernel
theorem liveAt0_2 : ∀ t : Fin cfg0.N, t.val % 4 = 3 → cfg0.idle 2 (grid0.coords t) = false := by decide +kernel

/-! ## The scratch, point by point -/

/-- The scratch operand: a whole scoped buffer of the kernel's own. -/
abbrev scM0 : Memref sig .tc .vmem S1024x512 .f32 := Memref.whole cc0_scratch0

/-- What the scratch holds after point `n`: at step 0 of a block zero plus the product, later the previous point's
    contents plus the product. -/
def accAt0 (c : Dev nD) : (n : ℕ) → n < cfg0.N → Vec F S1024x512 .f32
  | 0, hn => acc0 (xblk0 V c ⟨0, hn⟩) (wblk0 V c ⟨0, hn⟩) (k0_pay1 (F := F))
  | n + 1, hn =>
    if (n + 1) % 4 = 0 then acc0 (xblk0 V c ⟨n + 1, hn⟩) (wblk0 V c ⟨n + 1, hn⟩) (k0_pay1 (F := F))
    else acc0 (xblk0 V c ⟨n + 1, hn⟩) (wblk0 V c ⟨n + 1, hn⟩) (accAt0 c n (Nat.lt_of_succ_lt hn))

theorem accAt0_first (c : Dev nD) (t : Fin cfg0.N) (h0 : t.val % 4 = 0) :
    accAt0 V c t.val t.isLt = acc0 (xblk0 V c t) (wblk0 V c t) (k0_pay1 (F := F)) := by
  obtain ⟨n, hn⟩ := t
  cases n with
  | zero => rfl
  | succ n => exact if_pos h0

theorem accAt0_next (c : Dev nD) (t : Fin cfg0.N) (h0 : ¬ t.val % 4 = 0) :
    accAt0 V c t.val t.isLt = acc0 (xblk0 V c t) (wblk0 V c t) (accAt0 V c (t.val - 1) (Nat.lt_of_le_of_lt (Nat.sub_le _ _) t.isLt)) := by
  obtain ⟨n, hn⟩ := t
  cases n with
  | zero => exact absurd (Nat.zero_mod _) h0
  | succ n => exact if_neg h0

/-! ## The region invariant -/

/-- The scoped buffers other than the kernel's scratch and its windows' staging blocks, at anything. -/
abbrev rest0 (c : Dev nD) : sProp 𝕄 :=
  Pipeline.scopedRestBut (Ix := Unit) (Name := ℕ) (U := UR sig nD τ) (Lvl := ℕ) (Val := Elt F) spec0 c [cc0_scratch0]

/-- The class invariant with the scratch singled out. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [bigSepL_singleton, scM0, owns_whole]; try rfl

/-- The invariant before position `n`. -/
def PhiS0 (c : Dev nD) : (n : ℕ) → n ≤ cfg0.N → sProp 𝕄
  | 0, _ => Pipeline.ΦA spec0 c
  | n + 1, hn => iprop((owns (c : Thread nD τ) scM0 fullShare (accAt0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (accAt0 V c n hn) ∗ rest0 c) ∗ (∃ r, prngReg c r)) := rfl
theorem PhiS0_pos (c : Dev nD) (n : ℕ) (h : n ≤ cfg0.N) (hz : n ≠ 0) :
    PhiS0 V c n h = iprop((owns (c : Thread nD τ) scM0 fullShare (accAt0 V c (n - 1) (by omega)) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (accAt0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 256 := lt_of_lt_of_eq t.isLt (show cfg0.N = 256 from N_0)
  by_cases h1 : t.val % 4 = 3
  · -- the last step of a block: the output block is stored and written back
    have h0 : ¬ t.val % 4 = 0 := by omega
    have hz : t.val ≠ 0 := by omega
    rw [show (dat0 V c).leavesExact 2 t = owns (c : Thread nD τ) (st0_2 t) fullShare ((dat0 V c).after 2 t) from by
      unfold Dat.leavesExact; rw [liveAt0_2 t h1], after0_2]
    rw [accAt0_next V c t h0, PhiS0_castSucc V c t, PhiS0_pos V c _ _ hz]
    iintro ⟨⟨⟨HS, HR⟩, Hg⟩, Ho, ⟨%d0, H0⟩, ⟨%d1, H1⟩, ⟨%d2, H2⟩⟩
    iapply (body0_last c (grid0.coords t) Set.univ _ _ _ _ _ _ _ _ (fun h => h0 ((hcond0_0 t).mp h)) ((hcond0_1 t).mpr h1)
      (xblk0 V c t) (wblk0 V c t) (accAt0 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · rw [Dat.leavesExact_idle (dat0 V c) 2 t (idleAt0_2 t h1) (noFlush0_2 t h1)]
    by_cases h0 : t.val % 4 = 0
    · -- the first step of a block: the scratch is reset, whatever it held
      rw [accAt0_first V c t h0]
      by_cases hz : t.val = 0
      · rw [PhiS0_castSucc V c t, PhiS0_zero V c _ _ hz, PhiA0_eq]
        iintro ⟨⟨⟨HS, HR⟩, Hg⟩, Ho, ⟨%d0, H0⟩, ⟨%d1, H1⟩, ⟨%d2, H2⟩⟩
        iapply (body0_first c (grid0.coords t) Set.univ _ _ _ _ _ _ _ _ ((hcond0_0 t).mpr h0) (fun h => h1 ((hcond0_1 t).mp h))
          (xblk0 V c t) (wblk0 V c t) _ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS, HR⟩, Hg⟩, Ho, ⟨%d0, H0⟩, ⟨%d1, H1⟩, ⟨%d2, H2⟩⟩
        iapply (body0_first c (grid0.coords t) Set.univ _ _ _ _ _ _ _ _ ((hcond0_0 t).mpr h0) (fun h => h1 ((hcond0_1 t).mp h))
          (xblk0 V c t) (wblk0 V c t) _ _)
        isplitl [H0]; · iexact H0
        isplitl [H1]; · iexact H1
        isplitl [H2]; · iexact H2
        isplitl [HS]; · iexists _; iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
    · -- a middle step: the scratch is added to
      have hz : t.val ≠ 0 := by omega
      rw [accAt0_next V c t h0, PhiS0_castSucc V c t, PhiS0_pos V c _ _ hz]
      iintro ⟨⟨⟨HS, HR⟩, Hg⟩, Ho, ⟨%d0, H0⟩, ⟨%d1, H1⟩, ⟨%d2, H2⟩⟩
      iapply (body0_middle c (grid0.coords t) Set.univ _ _ _ _ _ _ _ _ (fun h => h0 ((hcond0_0 t).mp h)) (fun h => h1 ((hcond0_1 t).mp h))
        (xblk0 V c t) (wblk0 V c t) _ (accAt0 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the scratch's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 256 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS, HR⟩, Hg⟩
  isplitl [HS HR]
  · isplitl [HS]; · iexists _; iexact HS
    iexact HR
  iexact Hg

end Cert.Kernel.Hand

end
-- ==== Proof.K.Body1.lean ====
/-
  The body of the second matrix product, case by case.

  The kernel keeps a running sum in a scratch block over a grid axis of two steps. At the first step it fills the
  scratch with zeros and adds the product of the two input blocks; at the second (last) step it adds the product again
  and stores into the output block  1 · tanh( z + (1/2)·scratch + noise·0.1 + c ),  where z, noise and c are the blocks
  of the first product's result, of the noise and of the per-feature row vector. On whole staging blocks:
    * first step:  scratch = 0 + x·w,  output block untouched;
    * last step:   scratch = s + x·w,  output block = the epilogue of (z, s + x·w, noise, c).
  The input blocks are read and left as they were.
-/
import proofs.«125389_j10041633538618_1_alg».proof.Proof.Gen.Kernel.Launch
import proofs.«125389_j10041633538618_1_alg».proof.Proof.Gen.Kernel.Skeleton
import proofs.«125389_j10041633538618_1_alg».proof.Proof.Gen.Kernel.Points
import proofs.«125389_j10041633538618_1_alg».proof.Proof.K.Body0
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's first branch: the last grid coordinate is 0. -/
abbrev cond1_0 (i : grid1.Coords) : Prop := (Scalar.cmpi .ne (Scalar.extui (Scalar.cmpi .eq (BitVec.ofNat 32 (i 2).val) 0#32)) 0#32) = 1#1
/-- The kernel's second branch: the last grid coordinate is 1. -/
abbrev cond1_1 (i : grid1.Coords) : Prop := k1_cond2 i = 1#1

/-- The scratch after a step that began from contents `s`: `s` plus the product of the blocks. -/
abbrev acc1 (x : Vec F S1024x1024 .f32) (w : Vec F S1024x512 .f32) (s : Vec F S1024x512 .f32) : Vec F S1024x512 .f32 := k1_pay2 x w s

set_option maxHeartbeats 1000000 in
/-- First step: the scratch, whatever it held, ends at zero plus the product; the output block is not stored into. -/
theorem body1_first (c : Dev nD) (i : grid1.Coords) (E : Set ℕ)
    (arg3 : Memref sig .tc .vmem S1024x1024 .f32) (harg3 : arg3.IsWhole) (arg4 : Memref sig .tc .vmem S1024x512 .f32) (harg4 : arg4.IsWhole)
    (arg5 : Memref sig .tc .vmem S1024x512 .f32) (harg5 : arg5.IsWhole) (arg6 : Memref sig .tc .vmem S1024x512 .f32) (harg6 : arg6.IsWhole)
    (arg7 : Memref sig .tc .vmem S1x512 .f32) (harg7 : arg7.IsWhole) (arg8 : Memref sig .tc .vmem S1024x512 .f32) (harg8 : arg8.IsWhole)
    (arg9 : Memref sig .tc .vmem S1024x512 .f32) (harg9 : arg9.IsWhole)
    (hc0 : cond1_0 i) (hc1 : ¬cond1_1 i)
    (x : Vec F S1024x1024 .f32) (w : Vec F S1024x512 .f32) (z : Vec F S1024x512 .f32) (n : Vec F S1024x512 .f32) (cv : Vec F S1x512 .f32)
    (o : Vec F S1024x512 .f32) (K : PUnit → sProp 𝕄) :
    iprop(owns (c : Thread nD τ) arg3 fullShare x ∗ owns (c : Thread nD τ) arg4 fullShare w ∗ owns (c : Thread nD τ) arg5 fullShare z
        ∗ owns (c : Thread nD τ) arg6 fullShare n ∗ owns (c : Thread nD τ) arg7 fullShare cv ∗ owns (c : Thread nD τ) arg8 fullShare o
        ∗ (∃ d, owns (c : Thread nD τ) arg9 fullShare d)
        ∗ (iprop(owns (c : Thread nD τ) arg3 fullShare x ∗ owns (c : Thread nD τ) arg4 fullShare w ∗ owns (c : Thread nD τ) arg5 fullShare z
            ∗ owns (c : Thread nD τ) arg6 fullShare n ∗ owns (c : Thread nD τ) arg7 fullShare cv ∗ owns (c : Thread nD τ) arg8 fullShare o
            ∗ owns (c : Thread nD τ) arg9 fullShare (acc1 x w (k1_pay1 (F := F)))) -∗ K ⟨⟩))
      ⊢ wp frame (wpE (defs₀ (F := F)) Variants.none c none) E (cc1__mm2_kernel i arg3 harg3 arg4 harg4 arg5 harg5 arg6 harg6 arg7 harg7 arg8 harg8 arg9 harg9) K := by
  simp only [cc1__mm2_kernel_eq_skeleton]; unfold cc1__mm2_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  obtain rfl := harg3.eq_unread hf3; obtain rfl := harg4.eq_unread hf4
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  iexists _; isplitr
  swap; · iexact H9
  ipureintro
  sl_unfold_words
  rw [View.read_writes_eq_canon _ _ _ (fun y => ⟨_, List.mem_cons_self, View.mem_set_unit_zero hz2 inb_S1024x512_S1024x512_0_0 y⟩),
    View.canon_cons_unit_zero (S := S1024x512) hz2]
  simp only [View.readAt_eq_ld, Memref.IsWhole.read_unread, View.ld_unit_zero (S := S1024x1024) hz2,
    View.ld_unit_zero (S := S1024x512) hz2, View.readCov_unit_zero (S := S1024x512) _ hz2]

set_option maxHeartbeats 1000000 in
/-- Last step: the scratch goes from `s` to `s` plus the product, and the output block, whatever it held, ends at the
    epilogue of the first product's block, that sum, the noise block and the row vector. -/
theorem body1_last (c : Dev nD) (i : grid1.Coords) (E : Set ℕ)
    (arg3 : Memref sig .tc .vmem S1024x1024 .f32) (harg3 : arg3.IsWhole) (arg4 : Memref sig .tc .vmem S1024x512 .f32) (harg4 : arg4.IsWhole)
    (arg5 : Memref sig .tc .vmem S1024x512 .f32) (harg5 : arg5.IsWhole) (arg6 : Memref sig .tc .vmem S1024x512 .f32) (harg6 : arg6.IsWhole)
    (arg7 : Memref sig .tc .vmem S1x512 .f32) (harg7 : arg7.IsWhole) (arg8 : Memref sig .tc .vmem S1024x512 .f32) (harg8 : arg8.IsWhole)
    (arg9 : Memref sig .tc .vmem S1024x512 .f32) (harg9 : arg9.IsWhole)
    (hc0 : ¬cond1_0 i) (hc1 : cond1_1 i)
    (x : Vec F S1024x1024 .f32) (w : Vec F S1024x512 .f32) (z : Vec F S1024x512 .f32) (n : Vec F S1024x512 .f32) (cv : Vec F S1x512 .f32)
    (s : Vec F S1024x512 .f32) (K : PUnit → sProp 𝕄) :
    iprop(owns (c : Thread nD τ) arg3 fullShare x ∗ owns (c : Thread nD τ) arg4 fullShare w ∗ owns (c : Thread nD τ) arg5 fullShare z
        ∗ owns (c : Thread nD τ) arg6 fullShare n ∗ owns (c : Thread nD τ) arg7 fullShare cv ∗ (∃ d, owns (c : Thread nD τ) arg8 fullShare d)
        ∗ owns (c : Thread nD τ) arg9 fullShare s
        ∗ (iprop(owns (c : Thread nD τ) arg3 fullShare x ∗ owns (c : Thread nD τ) arg4 fullShare w ∗ owns (c : Thread nD τ) arg5 fullShare z
            ∗ owns (c : Thread nD τ) arg6 fullShare n ∗ owns (c : Thread nD τ) arg7 fullShare cv
            ∗ owns (c : Thread nD τ) arg8 fullShare (k1_pay3 z (acc1 x w s) n cv)
            ∗ owns (c : Thread nD τ) arg9 fullShare (acc1 x w s)) -∗ K ⟨⟩))
      ⊢ wp frame (wpE (defs₀ (F := F)) Variants.none c none) E (cc1__mm2_kernel i arg3 harg3 arg4 harg4 arg5 harg5 arg6 harg6 arg7 harg7 arg8 harg8 arg9 harg9) K := by
  simp only [cc1__mm2_kernel_eq_skeleton]; unfold cc1__mm2_kernel_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg9.eq_unread hf9
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_words
    rw [View.read_writes_eq_canon _ _ _ (fun y => ⟨_, List.mem_cons_self, View.mem_set_unit_zero hz2 inb_S1024x512_S1024x512_0_0 y⟩),
      View.canon_unit_zero (S := S1024x512) hz2]
    simp only [View.readAt_eq_ld, Memref.IsWhole.read_unread, View.ld_unit_zero (S := S1024x1024) hz2,
      View.ld_unit_zero (S := S1024x512) hz2, View.ld_unit_zero (S := S1x512) hz2, View.readCov_unit_zero (S := S1024x512) _ hz2]
  iexists _; isplitr
  swap; · iexact H9
  ipureintro
  sl_unfold_words
  rw [View.read_writes_eq_canon _ _ _ (fun y => ⟨_, List.mem_cons_self, View.mem_set_unit_zero hz2 inb_S1024x512_S1024x512_0_0 y⟩),
    View.canon_unit_zero (S := S1024x512) hz2]
  simp only [View.readAt_eq_ld, Memref.IsWhole.read_unread, View.ld_unit_zero (S := S1024x1024) hz2,
    View.ld_unit_zero (S := S1024x512) hz2]

end Cert.Kernel.Hand

end
-- ==== Proof.K.Dat1.lean ====
/-
  The proof data of the second matrix product's region.

  The grid has 8 × 8 × 2 points, the last coordinate fastest, so point t is step t mod 2 of an output block. After
  point t the scratch holds the sum, over the steps of that block up to t, of the products of the input blocks, starting
  from zero at step 0 (`accAt1`). The output block is stored, and written back, only at step 1: the epilogue of the first
  product's block, the scratch, the noise block and the row vector. At step 0 its staging block is handed back untouched.
  The blocks of the first product's result, of the noise and of the row vector are fetched at step 0 only and found in
  place at step 1. The region invariant before point t is the scratch at `accAt1 (t-1)` (anything before the first
  point), the other scoped buffers at anything, the generator register at some state.
-/
import proofs.«125389_j10041633538618_1_alg».proof.Proof.Gen.Kernel.Launch
import proofs.«125389_j10041633538618_1_alg».proof.Proof.Gen.Kernel.Skeleton
import proofs.«125389_j10041633538618_1_alg».proof.Proof.Gen.Kernel.Points
import proofs.«125389_j10041633538618_1_alg».proof.Proof.K.Body1
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two operands' blocks, the first product's block, the noise block and the row vector's block at point `t`. -/
abbrev xblk1 (c : Dev nD) (t : Fin cfg1.N) : Vec F S1024x1024 .f32 := iblk1 V c 0 t
abbrev wblk1 (c : Dev nD) (t : Fin cfg1.N) : Vec F S1024x512 .f32 := iblk1 V c 1 t
abbrev zblk1 (c : Dev nD) (t : Fin cfg1.N) : Vec F S1024x512 .f32 := iblk1 V c 2 t
abbrev nblk1 (c : Dev nD) (t : Fin cfg1.N) : Vec F S1024x512 .f32 := iblk1 V c 3 t
abbrev cblk1 (c : Dev nD) (t : Fin cfg1.N) : Vec F S1x512 .f32 := iblk1 V c 4 t

/-- An input window's staging block holds its block of the array at every point, fetched there or not, for any proof
    data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions over the grid, and where the output window is idle -/

theorem hcond1_0 : ∀ t : Fin cfg1.N, cond1_0 (grid1.coords t) ↔ t.val % 2 = 0 :=
  (by decide +kernel : ∀ t : Fin grid1.N, cond1_0 (grid1.coords t) ↔ t.val % 2 = 0)
theorem hcond1_1 : ∀ t : Fin cfg1.N, cond1_1 (grid1.coords t) ↔ t.val % 2 = 1 :=
  (by decide +kernel : ∀ t : Fin grid1.N, cond1_1 (grid1.coords t) ↔ t.val % 2 = 1)
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬ t.val % 2 = 1 → cfg1.idle 5 (grid1.coords t) = true := by decide +kernel
theorem noFlush1_5 : ∀ t : Fin cfg1.N, ¬ t.val % 2 = 1 → (cfg1.win 5).flush t = false := by decide +kernel
theorem liveAt1_5 : ∀ t : Fin cfg1.N, t.val % 2 = 1 → cfg1.idle 5 (grid1.coords t) = false := by decide +kernel

/-! ## The scratch, point by point -/

/-- The scratch operand: a whole scoped buffer of the kernel's own. -/
abbrev scM1 : Memref sig .tc .vmem S1024x512 .f32 := Memref.whole cc1_scratch0

/-- What the scratch holds after point `n`: at step 0 of a block zero plus the product, at step 1 the previous point's
    contents plus the product. -/
def accAt1 (c : Dev nD) : (n : ℕ) → n < cfg1.N → Vec F S1024x512 .f32
  | 0, hn => acc1 (xblk1 V c ⟨0, hn⟩) (wblk1 V c ⟨0, hn⟩) (k1_pay1 (F := F))
  | n + 1, hn =>
    if (n + 1) % 2 = 0 then acc1 (xblk1 V c ⟨n + 1, hn⟩) (wblk1 V c ⟨n + 1, hn⟩) (k1_pay1 (F := F))
    else acc1 (xblk1 V c ⟨n + 1, hn⟩) (wblk1 V c ⟨n + 1, hn⟩) (accAt1 c n (Nat.lt_of_succ_lt hn))

theorem accAt1_first (c : Dev nD) (t : Fin cfg1.N) (h0 : t.val % 2 = 0) :
    accAt1 V c t.val t.isLt = acc1 (xblk1 V c t) (wblk1 V c t) (k1_pay1 (F := F)) := by
  obtain ⟨n, hn⟩ := t
  cases n with
  | zero => rfl
  | succ n => exact if_pos h0

theorem accAt1_next (c : Dev nD) (t : Fin cfg1.N) (h0 : ¬ t.val % 2 = 0) :
    accAt1 V c t.val t.isLt = acc1 (xblk1 V c t) (wblk1 V c t) (accAt1 V c (t.val - 1) (Nat.lt_of_le_of_lt (Nat.sub_le _ _) t.isLt)) := by
  obtain ⟨n, hn⟩ := t
  cases n with
  | zero => exact absurd (Nat.zero_mod _) h0
  | succ n => exact if_neg h0

/-- What the last step of a block stores into the output block. -/
abbrev out1At (c : Dev nD) (t : Fin cfg1.N) : Vec F S1024x512 .f32 :=
  k1_pay3 (zblk1 V c t) (accAt1 V c t.val t.isLt) (nblk1 V c t) (cblk1 V c t)

/-! ## The region invariant -/

/-- The scoped buffers other than the kernel's scratch and its windows' staging blocks, at anything. -/
abbrev rest1 (c : Dev nD) : sProp 𝕄 :=
  Pipeline.scopedRestBut (Ix := Unit) (Name := ℕ) (U := UR sig nD τ) (Lvl := ℕ) (Val := Elt F) spec1 c [cc1_scratch0]

/-- The class invariant with the scratch singled out. -/
theorem PhiA1_eq (c : Dev nD) :
    (Pipeline.ΦA spec1 c : sProp 𝕄)
      = iprop(((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [bigSepL_singleton, scM1, owns_whole]; try rfl

/-- The invariant before position `n`. -/
def PhiS1 (c : Dev nD) : (n : ℕ) → n ≤ cfg1.N → sProp 𝕄
  | 0, _ => Pipeline.ΦA spec1 c
  | n + 1, hn => iprop((owns (c : Thread nD τ) scM1 fullShare (accAt1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (accAt1 V c n hn) ∗ rest1 c) ∗ (∃ r, prngReg c r)) := rfl
theorem PhiS1_pos (c : Dev nD) (n : ℕ) (h : n ≤ cfg1.N) (hz : n ≠ 0) :
    PhiS1 V c n h = iprop((owns (c : Thread nD τ) scM1 fullShare (accAt1 V c (n - 1) (by omega)) ∗ rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1At V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1At V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  have hN : t.val < 128 := lt_of_lt_of_eq t.isLt (show cfg1.N = 128 from N_1)
  by_cases h1 : t.val % 2 = 1
  · -- the last step of a block: the output block is stored and written back
    have h0 : ¬ t.val % 2 = 0 := by omega
    have hz : t.val ≠ 0 := by omega
    rw [show (dat1 V c).leavesExact 5 t = owns (c : Thread nD τ) (st1_5 t) fullShare ((dat1 V c).after 5 t) from by
      unfold Dat.leavesExact; rw [liveAt1_5 t h1], after1_5]
    unfold out1At
    rw [accAt1_next V c t h0, PhiS1_castSucc V c t, PhiS1_pos V c _ _ hz]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (body1_last c (grid1.coords t) Set.univ _ _ _ _ _ _ _ _ _ _ _ _ _ _ (fun h => h0 ((hcond1_0 t).mp h)) ((hcond1_1 t).mpr h1)
      (xblk1 V c t) (wblk1 V c t) (zblk1 V c t) (nblk1 V c t) (cblk1 V c t)
      (accAt1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · -- the first step of a block: the scratch is reset, whatever it held
    have h0 : t.val % 2 = 0 := by omega
    rw [Dat.leavesExact_idle (dat1 V c) 5 t (idleAt1_5 t h1) (noFlush1_5 t h1)]
    rw [accAt1_first V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (body1_first c (grid1.coords t) Set.univ _ _ _ _ _ _ _ _ _ _ _ _ _ _ ((hcond1_0 t).mpr h0) (fun h => h1 ((hcond1_1 t).mp h))
        (xblk1 V c t) (wblk1 V c t) (zblk1 V c t) (nblk1 V c t) (cblk1 V c t) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (body1_first c (grid1.coords t) Set.univ _ _ _ _ _ _ _ _ _ _ _ _ _ _ ((hcond1_0 t).mpr h0) (fun h => h1 ((hcond1_1 t).mp h))
        (xblk1 V c t) (wblk1 V c t) (zblk1 V c t) (nblk1 V c t) (cblk1 V c t) _ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS, HR⟩, Hg⟩
  isplitl [HS HR]
  · isplitl [HS]; · iexists _; iexact HS
    iexact HR
  iexact Hg

end Cert.Kernel.Hand

end
-- ==== Proof.K.Run.lean ====
/-
  The run of the whole program.

  @main is a stretch of host operations, the two kernel regions, and one last host operation. Between two items a core
  holds every unscoped buffer whole, at contents that fold through the items: the launch memory; then the host
  operations' results; then, after each region, that region's arrays at what its write-backs leave and every other
  buffer as it was. Each region is entered from and left at such a state, the host stretches move it along their
  fold, and the launch theorem for a list of segments gives: every weakly fair execution terminates, and at the end
  every unscoped buffer holds the last fold's contents. No item writes an argument array, so each reads back as
  launched.
-/
import proofs.«125389_j10041633538618_1_alg».proof.Proof.Gen.Kernel.Launch
import proofs.«125389_j10041633538618_1_alg».proof.Proof.Gen.Kernel.Skeleton
import proofs.«125389_j10041633538618_1_alg».proof.Proof.Gen.Kernel.Points
import proofs.«125389_j10041633538618_1_alg».proof.Proof.Gen.Kernel.Regions
import proofs.«125389_j10041633538618_1_alg».proof.Proof.K.Dat0
import proofs.«125389_j10041633538618_1_alg».proof.Proof.K.Dat1
import Idealize.ShloMosaic.Lib.Pipeline.RegionsLoop
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the first host stretch (the first region's entry). -/
abbrev W1 : Dev nD → Valuation τ sig (Elt F) := fun c => StableHlo.after hostOps0 (W0 m c)
/-- The same read at the TensorCore's references: what the first region's proof data take. -/
abbrev Ent1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (Ent1 m) c).arrAt w cfg0.N
theorem W2_arr (c : Dev nD) (w : Fin cfg0.W) :
    W2 m c (Proc.devRef .tc (Pipeline.arrRef spec0 w)) = (dat0 (Ent1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references: what the second region's proof data take. -/
abbrev Ent2 : (c : Dev nD) → (b : Ref sig .tc) → Buf (Elt F) ((c : Thread nD τ).loc b) := fun c b => W2 m c b
theorem hF0 (c : Dev nD) (w : Fin cfg0.W) : (dat0 (Ent1 m) c).arrAt w cfg0.N = Ent2 m c (Pipeline.arrRef spec0 w) :=
  (W2_arr m c w).symm
theorem hrest0 (c : Dev nD) : ∀ b, b ∉ Finset.univ.image (Pipeline.arrRef spec0) → Ent2 m c b = Ent1 m c b :=
  fun b hb => W2_of_ne m c b fun w e => hb (Finset.mem_image.mpr ⟨w, Finset.mem_univ _, e⟩)
/-- At the second region's exit. -/
def W3 (c : Dev nD) : Valuation τ sig (Elt F) :=
  Pipeline.withArrays spec1 c (W2 m c) fun w => (dat1 (Ent2 m) c).arrAt w cfg1.N
theorem W3_arr (c : Dev nD) (w : Fin cfg1.W) :
    W3 m c (Proc.devRef .tc (Pipeline.arrRef spec1 w)) = (dat1 (Ent2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Ent3 : (c : Dev nD) → (b : Ref sig .tc) → Buf (Elt F) ((c : Thread nD τ).loc b) := fun c b => W3 m c b
theorem hF1 (c : Dev nD) (w : Fin cfg1.W) : (dat1 (Ent2 m) c).arrAt w cfg1.N = Ent3 m c (Pipeline.arrRef spec1 w) :=
  (W3_arr m c w).symm
theorem hrest1 (c : Dev nD) : ∀ b, b ∉ Finset.univ.image (Pipeline.arrRef spec1) → Ent3 m c b = Ent2 m c b :=
  fun b hb => W3_of_ne m c b fun w e => hb (Finset.mem_image.mpr ⟨w, Finset.mem_univ _, e⟩)
/-- After the last host operation: the contents the program ends with. -/
abbrev W4 : Dev nD → Valuation τ sig (Elt F) := fun c => StableHlo.after hostOps2 (W3 m c)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide : main_arg0 ∉ hostOps2_W)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide : main_arg1 ∉ hostOps2_W)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide : main_arg2 ∉ hostOps2_W)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide : main_arg3 ∉ hostOps2_W)
    _ = W2 m c (Proc.devRef .tc main_arg3) := W3_of_ne m c main_arg3 (by decide)
    _ = W1 m c (Proc.devRef .tc main_arg3) := (W2_arr m c 1).trans (((dat0 (Ent1 m) c).arrAt_in 1 rfl _).trans (A_eq0 (Ent1 m) c 1))
    _ = W0 m c (Proc.devRef .tc main_arg3) := StableHlo.after_of_writes_sub hostOps0 _ hostOps0_writes (by decide : main_arg3 ∉ hostOps0_W)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (by decide : main_arg4 ∉ hostOps2_W)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (by decide : main_arg4 ∉ hostOps0_W)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (by decide : main_arg5 ∉ hostOps2_W)
    _ = W2 m c (Proc.devRef .tc main_arg5) := (W3_arr m c 1).trans (((dat1 (Ent2 m) c).arrAt_in 1 rfl _).trans (A_eq1 (Ent2 m) c 1))
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (by decide : main_arg6 ∉ hostOps2_W)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (by decide : main_arg6 ∉ hostOps0_W)
    _ = m ((c : Thread nD τ).loc main_arg6) := rfl

theorem W4_main_arg7 (c : Dev nD) : W4 m c (Proc.devRef .tc main_arg7) = m ((c : Thread nD τ).loc main_arg7) :=
  calc W4 m c (Proc.devRef .tc main_arg7)
    _ = W3 m c (Proc.devRef .tc main_arg7) := StableHlo.after_of_writes_sub hostOps2 _ hostOps2_writes (by decide : main_arg7 ∉ hostOps2_W)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := StableHlo.after_of_writes_sub hostOps0 _ hostOps0_writes (by decide : main_arg7 ∉ hostOps0_W)
    _ = m ((c : Thread nD τ).loc main_arg7) := rfl

theorem W4_main_arg8 (c : Dev nD) : W4 m c (Proc.devRef .tc main_arg8) = m ((c : Thread nD τ).loc main_arg8) :=
  calc W4 m c (Proc.devRef .tc main_arg8)
    _ = W3 m c (Proc.devRef .tc main_arg8) := StableHlo.after_of_writes_sub hostOps2 _ hostOps2_writes (by decide : main_arg8 ∉ hostOps2_W)
    _ = W2 m c (Proc.devRef .tc main_arg8) := W3_of_ne m c main_arg8 (by decide)
    _ = W1 m c (Proc.devRef .tc main_arg8) := W2_of_ne m c main_arg8 (by decide)
    _ = W0 m c (Proc.devRef .tc main_arg8) := StableHlo.after_of_writes_sub hostOps0 _ hostOps0_writes (by decide : main_arg8 ∉ hostOps0_W)
    _ = m ((c : Thread nD τ).loc main_arg8) := rfl

theorem W4_main_arg9 (c : Dev nD) : W4 m c (Proc.devRef .tc main_arg9) = m ((c : Thread nD τ).loc main_arg9) :=
  calc W4 m c (Proc.devRef .tc main_arg9)
    _ = W3 m c (Proc.devRef .tc main_arg9) := StableHlo.after_of_writes_sub hostOps2 _ hostOps2_writes (by decide : main_arg9 ∉ hostOps2_W)
    _ = W2 m c (Proc.devRef .tc main_arg9) := W3_of_ne m c main_arg9 (by decide)
    _ = W1 m c (Proc.devRef .tc main_arg9) := W2_of_ne m c main_arg9 (by decide)
    _ = W0 m c (Proc.devRef .tc main_arg9) := StableHlo.after_of_writes_sub hostOps0 _ hostOps0_writes (by decide : main_arg9 ∉ hostOps0_W)
    _ = m ((c : Thread nD τ).loc main_arg9) := rfl

/-! ## The proof data family and the thread state -/

/-- Every pipeline's proof data, each at its region's entry contents. -/
def pdatsH : (p : Fin 2) → (c : Dev nD) → Dat τ (Elt F) Unit ℕ (UR sig nD τ) ℕ (Pipeline.pin (pcfgs (F := F)) adm p) c
  | ⟨0, _⟩ => fun c => dat0 (Ent1 m) c
  | ⟨1, _⟩ => fun c => dat1 (Ent2 m) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state and the core owing nothing. -/
abbrev RH (c : Dev nD) : sProp 𝕄 := iprop((∃ r, prngReg c r) ∗ ∃ W, owes (c : Thread nD τ) (0 : CellTallies nD τ sig Unit) W)
/-- A host stretch as a segment, from the contents `W`, `RH` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register and the scoped buffers
    go into the region invariant and come back; nothing is owed; the kernel has no semaphore of its own. -/
def reg0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Ent1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (Ent1 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (Ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ent1 m) c)
    unfold Pipeline.ΦA
    iintro ⟨Hp, -, Hr⟩
    isplitl [Hr]; · iexact Hr
    iexact Hp
  hout c := by
    refine (hout0 (Ent1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (Ent1 m c) (Ent2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at the exit contents; the generator register and the scoped buffers
    go into the region invariant and come back; nothing is owed; the kernel has no semaphore of its own. -/
def reg1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Ent2 m) c).loose
  hwaits := Pipeline.hwaits_of_owed_zero _ _ _ _ LH lvH 1 fun _ _ => rfl
  pre c := iprop(StableHlo.held (c : Thread nD τ) (Pipeline.ucRefs τ sig) (W2 m c) ∗ RH c)
  post c := iprop(StableHlo.held (c : Thread nD τ) (Pipeline.ucRefs τ sig) (W3 m c) ∗ RH c)
  X c := iprop(∃ r, prngReg c r)
  Y c := iprop(∃ r, prngReg c r)
  Z c := Pipeline.unscopedRest (Ix := Unit) (Name := ℕ) (U := UR sig nD τ) (Lvl := ℕ) spec1 c (Ent2 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (Ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Ent2 m) c)
    unfold Pipeline.ΦA
    iintro ⟨Hp, -, Hr⟩
    isplitl [Hr]; · iexact Hr
    iexact Hp
  hout c := by
    refine (hout1 (Ent2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (Ent2 m c) (Ent3 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) adm (pdatsH m) () defs₀ 𝒱H LH lvH) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segsH m) := (main_chain c).trans (by chain_rfl)

set_option backward.isDefEq.respectTransparency.types false in
/-- THE RUN: from any memory with zero counters every weakly fair execution of @main terminates, nothing faulting, and
    every final state holds each unscoped TensorCore buffer at the last fold's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdatsH m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun c => by
      show (iprop(StableHlo.held (c : Thread nD τ) (Pipeline.ucRefs τ sig) (W4 m c) ∗ RH c) : sProp 𝕄) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c)⟩) (run_all m ρ)

end Cert.Kernel.Hand

end
-- ==== Proof.KI.Body0.lean ====
/-
  The body of the first matrix product, case by case.

  The kernel keeps a running sum in a scratch block. At a grid point whose last coordinate is 0 it first fills the
  scratch with zeros; at every point it adds the product of the two input blocks to the scratch; at a point whose
  last coordinate is 3 it also stores one half of the scratch into the output block. On whole staging blocks the
  three combinations the grid meets leave:
    * first step:   scratch = 0 + x·w,             output block untouched;
    * middle step:  scratch = s + x·w,             output block untouched;
    * last step:    scratch = s + x·w,             output block = (1/2)·(s + x·w),
  with s what the scratch held before. The input blocks are read and left as they were.
-/
import proofs.«125389_j10041633538618_1_alg».proof.Proof.Gen.KernelIdeal.Launch
import proofs.«125389_j10041633538618_1_alg».proof.Proof.Gen.KernelIdeal.Skeleton
import proofs.«125389_j10041633538618_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's first branch: the last grid coordinate is 0. -/
abbrev cond0_0 (i : grid0.Coords) : Prop := (Scalar.cmpi .ne (Scalar.extui (Scalar.cmpi .eq (BitVec.ofNat 32 (i 2).val) 0#32)) 0#32) = 1#1
/-- The kernel's second branch: the last grid coordinate is 3. -/
abbrev cond0_1 (i : grid0.Coords) : Prop := k0_cond2 i = 1#1

/-- The offsets of a whole-block access are all zero. -/
theorem hz2 : (![0, 0] : Fin 2 → Nat) = fun _ => 0 := by funext a; fin_cases a <;> rfl

/-- The scratch after a step that began from contents `s`: `s` plus the product of the blocks. -/
abbrev acc0 (x : Vec F S1024x1024 .f32) (w : Vec F S1024x512 .f32) (s : Vec F S1024x512 .f32) : Vec F S1024x512 .f32 := k0_pay2 x w s

set_option maxHeartbeats 1000000 in
/-- First step: the scratch, whatever it held, ends at zero plus the product; the output block is not stored into. -/
theorem body0_first (c : Dev nD) (i : grid0.Coords) (E : Set ℕ)
    (arg3 : Memref sig .tc .vmem S1024x1024 .f32) (harg3 : arg3.IsWhole) (arg4 : Memref sig .tc .vmem S1024x512 .f32) (harg4 : arg4.IsWhole)
    (arg5 : Memref sig .tc .vmem S1024x512 .f32) (harg5 : arg5.IsWhole) (arg6 : Memref sig .tc .vmem S1024x512 .f32) (harg6 : arg6.IsWhole)
    (hc0 : cond0_0 i) (hc1 : ¬cond0_1 i)
    (x : Vec F S1024x1024 .f32) (w : Vec F S1024x512 .f32) (o : Vec F S1024x512 .f32) (K : PUnit → sProp 𝕄) :
    iprop(owns (c : Thread nD τ) arg3 fullShare x ∗ owns (c : Thread nD τ) arg4 fullShare w ∗ owns (c : Thread nD τ) arg5 fullShare o
        ∗ (∃ d, owns (c : Thread nD τ) arg6 fullShare d)
        ∗ (iprop(owns (c : Thread nD τ) arg3 fullShare x ∗ owns (c : Thread nD τ) arg4 fullShare w ∗ owns (c : Thread nD τ) arg5 fullShare o
            ∗ owns (c : Thread nD τ) arg6 fullShare (acc0 x w (k0_pay1 (F := F)))) -∗ K ⟨⟩))
      ⊢ wp frame (wpE (defs₀ (F := F)) Variants.none c none) E (cc0__mm1_kernel i arg3 harg3 arg4 harg4 arg5 harg5 arg6 harg6) K := by
  simp only [cc0__mm1_kernel_eq_skeleton]; unfold cc0__mm1_kernel_skel
  unfold owns
  iintro ⟨⟨%f3, %hf3, H3⟩, ⟨%f4, %hf4, H4⟩, ⟨%f5, %hf5, H5⟩, ⟨%d6, %f6, -, H6⟩, Hk⟩
  obtain rfl := harg3.eq_unread hf3; obtain rfl := harg4.eq_unread hf4
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact H6
  ipureintro
  sl_unfold_words
  rw [View.read_writes_eq_canon _ _ _ (fun y => ⟨_, List.mem_cons_self, View.mem_set_unit_zero hz2 inb_S1024x512_S1024x512_0_0 y⟩),
    View.canon_cons_unit_zero (S := S1024x512) hz2]
  simp only [View.readAt_eq_ld, Memref.IsWhole.read_unread, View.ld_unit_zero (S := S1024x1024) hz2,
    View.ld_unit_zero (S := S1024x512) hz2, View.readCov_unit_zero (S := S1024x512) _ hz2]

set_option maxHeartbeats 1000000 in
/-- Middle step: the scratch goes from `s` to `s` plus the product; the output block is not stored into. -/
theorem body0_middle (c : Dev nD) (i : grid0.Coords) (E : Set ℕ)
    (arg3 : Memref sig .tc .vmem S1024x1024 .f32) (harg3 : arg3.IsWhole) (arg4 : Memref sig .tc .vmem S1024x512 .f32) (harg4 : arg4.IsWhole)
    (arg5 : Memref sig .tc .vmem S1024x512 .f32) (harg5 : arg5.IsWhole) (arg6 : Memref sig .tc .vmem S1024x512 .f32) (harg6 : arg6.IsWhole)
    (hc0 : ¬cond0_0 i) (hc1 : ¬cond0_1 i)
    (x : Vec F S1024x1024 .f32) (w : Vec F S1024x512 .f32) (o : Vec F S1024x512 .f32) (s : Vec F S1024x512 .f32) (K : PUnit → sProp 𝕄) :
    iprop(owns (c : Thread nD τ) arg3 fullShare x ∗ owns (c : Thread nD τ) arg4 fullShare w ∗ owns (c : Thread nD τ) arg5 fullShare o
        ∗ owns (c : Thread nD τ) arg6 fullShare s
        ∗ (iprop(owns (c : Thread nD τ) arg3 fullShare x ∗ owns (c : Thread nD τ) arg4 fullShare w ∗ owns (c : Thread nD τ) arg5 fullShare o
            ∗ owns (c : Thread nD τ) arg6 fullShare (acc0 x w s)) -∗ K ⟨⟩))
      ⊢ wp frame (wpE (defs₀ (F := F)) Variants.none c none) E (cc0__mm1_kernel i arg3 harg3 arg4 harg4 arg5 harg5 arg6 harg6) K := by
  simp only [cc0__mm1_kernel_eq_skeleton]; unfold cc0__mm1_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact H6
  ipureintro
  sl_unfold_words
  rw [View.read_writes_eq_canon _ _ _ (fun y => ⟨_, List.mem_cons_self, View.mem_set_unit_zero hz2 inb_S1024x512_S1024x512_0_0 y⟩),
    View.canon_unit_zero (S := S1024x512) hz2]
  simp only [View.readAt_eq_ld, Memref.IsWhole.read_unread, View.ld_unit_zero (S := S1024x1024) hz2,
    View.ld_unit_zero (S := S1024x512) hz2]

set_option maxHeartbeats 1000000 in
/-- Last step: the scratch goes from `s` to `s` plus the product, and the output block, whatever it held, ends at
    one half of that. -/
theorem body0_last (c : Dev nD) (i : grid0.Coords) (E : Set ℕ)
    (arg3 : Memref sig .tc .vmem S1024x1024 .f32) (harg3 : arg3.IsWhole) (arg4 : Memref sig .tc .vmem S1024x512 .f32) (harg4 : arg4.IsWhole)
    (arg5 : Memref sig .tc .vmem S1024x512 .f32) (harg5 : arg5.IsWhole) (arg6 : Memref sig .tc .vmem S1024x512 .f32) (harg6 : arg6.IsWhole)
    (hc0 : ¬cond0_0 i) (hc1 : cond0_1 i)
    (x : Vec F S1024x1024 .f32) (w : Vec F S1024x512 .f32) (s : Vec F S1024x512 .f32) (K : PUnit → sProp 𝕄) :
    iprop(owns (c : Thread nD τ) arg3 fullShare x ∗ owns (c : Thread nD τ) arg4 fullShare w ∗ (∃ d, owns (c : Thread nD τ) arg5 fullShare d)
        ∗ owns (c : Thread nD τ) arg6 fullShare s
        ∗ (iprop(owns (c : Thread nD τ) arg3 fullShare x ∗ owns (c : Thread nD τ) arg4 fullShare w
            ∗ owns (c : Thread nD τ) arg5 fullShare (k0_pay3 (acc0 x w s))
            ∗ owns (c : Thread nD τ) arg6 fullShare (acc0 x w s)) -∗ K ⟨⟩))
      ⊢ wp frame (wpE (defs₀ (F := F)) Variants.none c none) E (cc0__mm1_kernel i arg3 harg3 arg4 harg4 arg5 harg5 arg6 harg6) K := by
  simp only [cc0__mm1_kernel_eq_skeleton]; unfold cc0__mm1_kernel_skel
  unfold owns
  iintro ⟨⟨%f3, %hf3, H3⟩, ⟨%f4, %hf4, H4⟩, ⟨%d5, %f5, -, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_words
    rw [View.read_writes_eq_canon _ _ _ (fun y => ⟨_, List.mem_cons_self, View.mem_set_unit_zero hz2 inb_S1024x512_S1024x512_0_0 y⟩),
      View.canon_unit_zero (S := S1024x512) hz2]
    simp only [View.readAt_eq_ld, Memref.IsWhole.read_unread, View.ld_unit_zero (S := S1024x1024) hz2,
      View.ld_unit_zero (S := S1024x512) hz2, View.readCov_unit_zero (S := S1024x512) _ hz2]
  iexists _; isplitr
  swap; · iexact H6
  ipureintro
  sl_unfold_words
  rw [View.read_writes_eq_canon _ _ _ (fun y => ⟨_, List.mem_cons_self, View.mem_set_unit_zero hz2 inb_S1024x512_S1024x512_0_0 y⟩),
    View.canon_unit_zero (S := S1024x512) hz2]
  simp only [View.readAt_eq_ld, Memref.IsWhole.read_unread, View.ld_unit_zero (S := S1024x1024) hz2,
    View.ld_unit_zero (S := S1024x512) hz2]

end Cert.KernelIdeal.Hand

end
-- ==== Proof.KI.Dat0.lean ====
/-
  The proof data of the first matrix product's region.

  The grid has 8 × 8 × 4 points, the last coordinate fastest, so point t is step t mod 4 of an output block's
  accumulation. After point t the scratch holds the sum, over the steps of that block up to t, of the products of the
  input blocks, starting from zero at step 0 (`accAt0`). The output block is stored only at step 3, as one half of the
  scratch, and is written back only there; at the other steps its staging block is handed back untouched. The region
  invariant before point t is: the scratch at `accAt0 (t-1)` (anything before the first point), the other scoped
  buffers at anything, the generator register at some state.
-/
import proofs.«125389_j10041633538618_1_alg».proof.Proof.Gen.KernelIdeal.Launch
import proofs.«125389_j10041633538618_1_alg».proof.Proof.Gen.KernelIdeal.Skeleton
import proofs.«125389_j10041633538618_1_alg».proof.Proof.Gen.KernelIdeal.Points
import proofs.«125389_j10041633538618_1_alg».proof.Proof.KI.Body0
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's block and the right operand's block at point `t`. -/
abbrev xblk0 (c : Dev nD) (t : Fin cfg0.N) : Vec F S1024x1024 .f32 := iblk0 V c 0 t
abbrev wblk0 (c : Dev nD) (t : Fin cfg0.N) : Vec F S1024x512 .f32 := iblk0 V c 1 t

/-- An input window's staging block holds its block of the array at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions over the grid, and where the output window is idle -/

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬ t.val % 4 = 3 → cfg0.idle 2 (grid0.coords t) = true := by decide +kernel
theorem noFlush0_2 : ∀ t : Fin cfg0.N, ¬ t.val % 4 = 3 → (cfg0.win 2).flush t = false := by decide +kernel
theorem liveAt0_2 : ∀ t : Fin cfg0.N, t.val % 4 = 3 → cfg0.idle 2 (grid0.coords t) = false := by decide +kernel

/-! ## The scratch, point by point -/

/-- The scratch operand: a whole scoped buffer of the kernel's own. -/
abbrev scM0 : Memref sig .tc .vmem S1024x512 .f32 := Memref.whole cc0_scratch0

/-- What the scratch holds after point `n`: at step 0 of a block zero plus the product, later the previous point's
    contents plus the product. -/
def accAt0 (c : Dev nD) : (n : ℕ) → n < cfg0.N → Vec F S1024x512 .f32
  | 0, hn => acc0 (xblk0 V c ⟨0, hn⟩) (wblk0 V c ⟨0, hn⟩) (k0_pay1 (F := F))
  | n + 1, hn =>
    if (n + 1) % 4 = 0 then acc0 (xblk0 V c ⟨n + 1, hn⟩) (wblk0 V c ⟨n + 1, hn⟩) (k0_pay1 (F := F))
    else acc0 (xblk0 V c ⟨n + 1, hn⟩) (wblk0 V c ⟨n + 1, hn⟩) (accAt0 c n (Nat.lt_of_succ_lt hn))

theorem accAt0_first (c : Dev nD) (t : Fin cfg0.N) (h0 : t.val % 4 = 0) :
    accAt0 V c t.val t.isLt = acc0 (xblk0 V c t) (wblk0 V c t) (k0_pay1 (F := F)) := by
  obtain ⟨n, hn⟩ := t
  cases n with
  | zero => rfl
  | succ n => exact if_pos h0

theorem accAt0_next (c : Dev nD) (t : Fin cfg0.N) (h0 : ¬ t.val % 4 = 0) :
    accAt0 V c t.val t.isLt = acc0 (xblk0 V c t) (wblk0 V c t) (accAt0 V c (t.val - 1) (Nat.lt_of_le_of_lt (Nat.sub_le _ _) t.isLt)) := by
  obtain ⟨n, hn⟩ := t
  cases n with
  | zero => exact absurd (Nat.zero_mod _) h0
  | succ n => exact if_neg h0

/-! ## The region invariant -/

/-- The scoped buffers other than the kernel's scratch and its windows' staging blocks, at anything. -/
abbrev rest0 (c : Dev nD) : sProp 𝕄 :=
  Pipeline.scopedRestBut (Ix := Unit) (Name := ℕ) (U := UR sig nD τ) (Lvl := ℕ) (Val := Elt F) spec0 c [cc0_scratch0]

/-- The class invariant with the scratch singled out. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [bigSepL_singleton, scM0, owns_whole]; try rfl

/-- The invariant before position `n`. -/
def PhiS0 (c : Dev nD) : (n : ℕ) → n ≤ cfg0.N → sProp 𝕄
  | 0, _ => Pipeline.ΦA spec0 c
  | n + 1, hn => iprop((owns (c : Thread nD τ) scM0 fullShare (accAt0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (accAt0 V c n hn) ∗ rest0 c) ∗ (∃ r, prngReg c r)) := rfl
theorem PhiS0_pos (c : Dev nD) (n : ℕ) (h : n ≤ cfg0.N) (hz : n ≠ 0) :
    PhiS0 V c n h = iprop((owns (c : Thread nD τ) scM0 fullShare (accAt0 V c (n - 1) (by omega)) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (accAt0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 256 := lt_of_lt_of_eq t.isLt (show cfg0.N = 256 from N_0)
  by_cases h1 : t.val % 4 = 3
  · -- the last step of a block: the output block is stored and written back
    have h0 : ¬ t.val % 4 = 0 := by omega
    have hz : t.val ≠ 0 := by omega
    rw [show (dat0 V c).leavesExact 2 t = owns (c : Thread nD τ) (st0_2 t) fullShare ((dat0 V c).after 2 t) from by
      unfold Dat.leavesExact; rw [liveAt0_2 t h1], after0_2]
    rw [accAt0_next V c t h0, PhiS0_castSucc V c t, PhiS0_pos V c _ _ hz]
    iintro ⟨⟨⟨HS, HR⟩, Hg⟩, Ho, ⟨%d0, H0⟩, ⟨%d1, H1⟩, ⟨%d2, H2⟩⟩
    iapply (body0_last c (grid0.coords t) Set.univ _ _ _ _ _ _ _ _ (fun h => h0 ((hcond0_0 t).mp h)) ((hcond0_1 t).mpr h1)
      (xblk0 V c t) (wblk0 V c t) (accAt0 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · rw [Dat.leavesExact_idle (dat0 V c) 2 t (idleAt0_2 t h1) (noFlush0_2 t h1)]
    by_cases h0 : t.val % 4 = 0
    · -- the first step of a block: the scratch is reset, whatever it held
      rw [accAt0_first V c t h0]
      by_cases hz : t.val = 0
      · rw [PhiS0_castSucc V c t, PhiS0_zero V c _ _ hz, PhiA0_eq]
        iintro ⟨⟨⟨HS, HR⟩, Hg⟩, Ho, ⟨%d0, H0⟩, ⟨%d1, H1⟩, ⟨%d2, H2⟩⟩
        iapply (body0_first c (grid0.coords t) Set.univ _ _ _ _ _ _ _ _ ((hcond0_0 t).mpr h0) (fun h => h1 ((hcond0_1 t).mp h))
          (xblk0 V c t) (wblk0 V c t) _ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS, HR⟩, Hg⟩, Ho, ⟨%d0, H0⟩, ⟨%d1, H1⟩, ⟨%d2, H2⟩⟩
        iapply (body0_first c (grid0.coords t) Set.univ _ _ _ _ _ _ _ _ ((hcond0_0 t).mpr h0) (fun h => h1 ((hcond0_1 t).mp h))
          (xblk0 V c t) (wblk0 V c t) _ _)
        isplitl [H0]; · iexact H0
        isplitl [H1]; · iexact H1
        isplitl [H2]; · iexact H2
        isplitl [HS]; · iexists _; iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
    · -- a middle step: the scratch is added to
      have hz : t.val ≠ 0 := by omega
      rw [accAt0_next V c t h0, PhiS0_castSucc V c t, PhiS0_pos V c _ _ hz]
      iintro ⟨⟨⟨HS, HR⟩, Hg⟩, Ho, ⟨%d0, H0⟩, ⟨%d1, H1⟩, ⟨%d2, H2⟩⟩
      iapply (body0_middle c (grid0.coords t) Set.univ _ _ _ _ _ _ _ _ (fun h => h0 ((hcond0_0 t).mp h)) (fun h => h1 ((hcond0_1 t).mp h))
        (xblk0 V c t) (wblk0 V c t) _ (accAt0 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the scratch's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 256 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS, HR⟩, Hg⟩
  isplitl [HS HR]
  · isplitl [HS]; · iexists _; iexact HS
    iexact HR
  iexact Hg

end Cert.KernelIdeal.Hand

end
-- ==== Proof.KI.Body1.lean ====
/-
  The body of the second matrix product, case by case.

  The kernel keeps a running sum in a scratch block over a grid axis of two steps. At the first step it fills the
  scratch with zeros and adds the product of the two input blocks; at the second (last) step it adds the product again
  and stores into the output block  1 · tanh( z + (1/2)·scratch + noise·0.1 + c ),  where z, noise and c are the blocks
  of the first product's result, of the noise and of the per-feature row vector. On whole staging blocks:
    * first step:  scratch = 0 + x·w,  output block untouched;
    * last step:   scratch = s + x·w,  output block = the epilogue of (z, s + x·w, noise, c).
  The input blocks are read and left as they were.
-/
import proofs.«125389_j10041633538618_1_alg».proof.Proof.Gen.KernelIdeal.Launch
import proofs.«125389_j10041633538618_1_alg».proof.Proof.Gen.KernelIdeal.Skeleton
import proofs.«125389_j10041633538618_1_alg».proof.Proof.Gen.KernelIdeal.Points
import proofs.«125389_j10041633538618_1_alg».proof.Proof.KI.Body0
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The kernel's first branch: the last grid coordinate is 0. -/
abbrev cond1_0 (i : grid1.Coords) : Prop := (Scalar.cmpi .ne (Scalar.extui (Scalar.cmpi .eq (BitVec.ofNat 32 (i 2).val) 0#32)) 0#32) = 1#1
/-- The kernel's second branch: the last grid coordinate is 1. -/
abbrev cond1_1 (i : grid1.Coords) : Prop := k1_cond2 i = 1#1

/-- The scratch after a step that began from contents `s`: `s` plus the product of the blocks. -/
abbrev acc1 (x : Vec F S1024x1024 .f32) (w : Vec F S1024x512 .f32) (s : Vec F S1024x512 .f32) : Vec F S1024x512 .f32 := k1_pay2 x w s

set_option maxHeartbeats 1000000 in
/-- First step: the scratch, whatever it held, ends at zero plus the product; the output block is not stored into. -/
theorem body1_first (c : Dev nD) (i : grid1.Coords) (E : Set ℕ)
    (arg3 : Memref sig .tc .vmem S1024x1024 .f32) (harg3 : arg3.IsWhole) (arg4 : Memref sig .tc .vmem S1024x512 .f32) (harg4 : arg4.IsWhole)
    (arg5 : Memref sig .tc .vmem S1024x512 .f32) (harg5 : arg5.IsWhole) (arg6 : Memref sig .tc .vmem S1024x512 .f32) (harg6 : arg6.IsWhole)
    (arg7 : Memref sig .tc .vmem S1x512 .f32) (harg7 : arg7.IsWhole) (arg8 : Memref sig .tc .vmem S1024x512 .f32) (harg8 : arg8.IsWhole)
    (arg9 : Memref sig .tc .vmem S1024x512 .f32) (harg9 : arg9.IsWhole)
    (hc0 : cond1_0 i) (hc1 : ¬cond1_1 i)
    (x : Vec F S1024x1024 .f32) (w : Vec F S1024x512 .f32) (z : Vec F S1024x512 .f32) (n : Vec F S1024x512 .f32) (cv : Vec F S1x512 .f32)
    (o : Vec F S1024x512 .f32) (K : PUnit → sProp 𝕄) :
    iprop(owns (c : Thread nD τ) arg3 fullShare x ∗ owns (c : Thread nD τ) arg4 fullShare w ∗ owns (c : Thread nD τ) arg5 fullShare z
        ∗ owns (c : Thread nD τ) arg6 fullShare n ∗ owns (c : Thread nD τ) arg7 fullShare cv ∗ owns (c : Thread nD τ) arg8 fullShare o
        ∗ (∃ d, owns (c : Thread nD τ) arg9 fullShare d)
        ∗ (iprop(owns (c : Thread nD τ) arg3 fullShare x ∗ owns (c : Thread nD τ) arg4 fullShare w ∗ owns (c : Thread nD τ) arg5 fullShare z
            ∗ owns (c : Thread nD τ) arg6 fullShare n ∗ owns (c : Thread nD τ) arg7 fullShare cv ∗ owns (c : Thread nD τ) arg8 fullShare o
            ∗ owns (c : Thread nD τ) arg9 fullShare (acc1 x w (k1_pay1 (F := F)))) -∗ K ⟨⟩))
      ⊢ wp frame (wpE (defs₀ (F := F)) Variants.none c none) E (cc1__mm2_kernel i arg3 harg3 arg4 harg4 arg5 harg5 arg6 harg6 arg7 harg7 arg8 harg8 arg9 harg9) K := by
  simp only [cc1__mm2_kernel_eq_skeleton]; unfold cc1__mm2_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  obtain rfl := harg3.eq_unread hf3; obtain rfl := harg4.eq_unread hf4
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  iexists _; isplitr
  swap; · iexact H9
  ipureintro
  sl_unfold_words
  rw [View.read_writes_eq_canon _ _ _ (fun y => ⟨_, List.mem_cons_self, View.mem_set_unit_zero hz2 inb_S1024x512_S1024x512_0_0 y⟩),
    View.canon_cons_unit_zero (S := S1024x512) hz2]
  simp only [View.readAt_eq_ld, Memref.IsWhole.read_unread, View.ld_unit_zero (S := S1024x1024) hz2,
    View.ld_unit_zero (S := S1024x512) hz2, View.readCov_unit_zero (S := S1024x512) _ hz2]

set_option maxHeartbeats 1000000 in
/-- Last step: the scratch goes from `s` to `s` plus the product, and the output block, whatever it held, ends at the
    epilogue of the first product's block, that sum, the noise block and the row vector. -/
theorem body1_last (c : Dev nD) (i : grid1.Coords) (E : Set ℕ)
    (arg3 : Memref sig .tc .vmem S1024x1024 .f32) (harg3 : arg3.IsWhole) (arg4 : Memref sig .tc .vmem S1024x512 .f32) (harg4 : arg4.IsWhole)
    (arg5 : Memref sig .tc .vmem S1024x512 .f32) (harg5 : arg5.IsWhole) (arg6 : Memref sig .tc .vmem S1024x512 .f32) (harg6 : arg6.IsWhole)
    (arg7 : Memref sig .tc .vmem S1x512 .f32) (harg7 : arg7.IsWhole) (arg8 : Memref sig .tc .vmem S1024x512 .f32) (harg8 : arg8.IsWhole)
    (arg9 : Memref sig .tc .vmem S1024x512 .f32) (harg9 : arg9.IsWhole)
    (hc0 : ¬cond1_0 i) (hc1 : cond1_1 i)
    (x : Vec F S1024x1024 .f32) (w : Vec F S1024x512 .f32) (z : Vec F S1024x512 .f32) (n : Vec F S1024x512 .f32) (cv : Vec F S1x512 .f32)
    (s : Vec F S1024x512 .f32) (K : PUnit → sProp 𝕄) :
    iprop(owns (c : Thread nD τ) arg3 fullShare x ∗ owns (c : Thread nD τ) arg4 fullShare w ∗ owns (c : Thread nD τ) arg5 fullShare z
        ∗ owns (c : Thread nD τ) arg6 fullShare n ∗ owns (c : Thread nD τ) arg7 fullShare cv ∗ (∃ d, owns (c : Thread nD τ) arg8 fullShare d)
        ∗ owns (c : Thread nD τ) arg9 fullShare s
        ∗ (iprop(owns (c : Thread nD τ) arg3 fullShare x ∗ owns (c : Thread nD τ) arg4 fullShare w ∗ owns (c : Thread nD τ) arg5 fullShare z
            ∗ owns (c : Thread nD τ) arg6 fullShare n ∗ owns (c : Thread nD τ) arg7 fullShare cv
            ∗ owns (c : Thread nD τ) arg8 fullShare (k1_pay3 z (acc1 x w s) n cv)
            ∗ owns (c : Thread nD τ) arg9 fullShare (acc1 x w s)) -∗ K ⟨⟩))
      ⊢ wp frame (wpE (defs₀ (F := F)) Variants.none c none) E (cc1__mm2_kernel i arg3 harg3 arg4 harg4 arg5 harg5 arg6 harg6 arg7 harg7 arg8 harg8 arg9 harg9) K := by
  simp only [cc1__mm2_kernel_eq_skeleton]; unfold cc1__mm2_kernel_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7; obtain rfl := harg9.eq_unread hf9
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    sl_unfold_words
    rw [View.read_writes_eq_canon _ _ _ (fun y => ⟨_, List.mem_cons_self, View.mem_set_unit_zero hz2 inb_S1024x512_S1024x512_0_0 y⟩),
      View.canon_unit_zero (S := S1024x512) hz2]
    simp only [View.readAt_eq_ld, Memref.IsWhole.read_unread, View.ld_unit_zero (S := S1024x1024) hz2,
      View.ld_unit_zero (S := S1024x512) hz2, View.ld_unit_zero (S := S1x512) hz2, View.readCov_unit_zero (S := S1024x512) _ hz2]
  iexists _; isplitr
  swap; · iexact H9
  ipureintro
  sl_unfold_words
  rw [View.read_writes_eq_canon _ _ _ (fun y => ⟨_, List.mem_cons_self, View.mem_set_unit_zero hz2 inb_S1024x512_S1024x512_0_0 y⟩),
    View.canon_unit_zero (S := S1024x512) hz2]
  simp only [View.readAt_eq_ld, Memref.IsWhole.read_unread, View.ld_unit_zero (S := S1024x1024) hz2,
    View.ld_unit_zero (S := S1024x512) hz2]

end Cert.KernelIdeal.Hand

end
-- ==== Proof.KI.Dat1.lean ====
/-
  The proof data of the second matrix product's region.

  The grid has 8 × 8 × 2 points, the last coordinate fastest, so point t is step t mod 2 of an output block. After
  point t the scratch holds the sum, over the steps of that block up to t, of the products of the input blocks, starting
  from zero at step 0 (`accAt1`). The output block is stored, and written back, only at step 1: the epilogue of the first
  product's block, the scratch, the noise block and the row vector. At step 0 its staging block is handed back untouched.
  The blocks of the first product's result, of the noise and of the row vector are fetched at step 0 only and found in
  place at step 1. The region invariant before point t is the scratch at `accAt1 (t-1)` (anything before the first
  point), the other scoped buffers at anything, the generator register at some state.
-/
import proofs.«125389_j10041633538618_1_alg».proof.Proof.Gen.KernelIdeal.Launch
import proofs.«125389_j10041633538618_1_alg».proof.Proof.Gen.KernelIdeal.Skeleton
import proofs.«125389_j10041633538618_1_alg».proof.Proof.Gen.KernelIdeal.Points
import proofs.«125389_j10041633538618_1_alg».proof.Proof.KI.Body1
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two operands' blocks, the first product's block, the noise block and the row vector's block at point `t`. -/
abbrev xblk1 (c : Dev nD) (t : Fin cfg1.N) : Vec F S1024x1024 .f32 := iblk1 V c 0 t
abbrev wblk1 (c : Dev nD) (t : Fin cfg1.N) : Vec F S1024x512 .f32 := iblk1 V c 1 t
abbrev zblk1 (c : Dev nD) (t : Fin cfg1.N) : Vec F S1024x512 .f32 := iblk1 V c 2 t
abbrev nblk1 (c : Dev nD) (t : Fin cfg1.N) : Vec F S1024x512 .f32 := iblk1 V c 3 t
abbrev cblk1 (c : Dev nD) (t : Fin cfg1.N) : Vec F S1x512 .f32 := iblk1 V c 4 t

/-- An input window's staging block holds its block of the array at every point, fetched there or not, for any proof
    data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions over the grid, and where the output window is idle -/

theorem hcond1_0 : ∀ t : Fin cfg1.N, cond1_0 (grid1.coords t) ↔ t.val % 2 = 0 :=
  (by decide +kernel : ∀ t : Fin grid1.N, cond1_0 (grid1.coords t) ↔ t.val % 2 = 0)
theorem hcond1_1 : ∀ t : Fin cfg1.N, cond1_1 (grid1.coords t) ↔ t.val % 2 = 1 :=
  (by decide +kernel : ∀ t : Fin grid1.N, cond1_1 (grid1.coords t) ↔ t.val % 2 = 1)
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬ t.val % 2 = 1 → cfg1.idle 5 (grid1.coords t) = true := by decide +kernel
theorem noFlush1_5 : ∀ t : Fin cfg1.N, ¬ t.val % 2 = 1 → (cfg1.win 5).flush t = false := by decide +kernel
theorem liveAt1_5 : ∀ t : Fin cfg1.N, t.val % 2 = 1 → cfg1.idle 5 (grid1.coords t) = false := by decide +kernel

/-! ## The scratch, point by point -/

/-- The scratch operand: a whole scoped buffer of the kernel's own. -/
abbrev scM1 : Memref sig .tc .vmem S1024x512 .f32 := Memref.whole cc1_scratch0

/-- What the scratch holds after point `n`: at step 0 of a block zero plus the product, at step 1 the previous point's
    contents plus the product. -/
def accAt1 (c : Dev nD) : (n : ℕ) → n < cfg1.N → Vec F S1024x512 .f32
  | 0, hn => acc1 (xblk1 V c ⟨0, hn⟩) (wblk1 V c ⟨0, hn⟩) (k1_pay1 (F := F))
  | n + 1, hn =>
    if (n + 1) % 2 = 0 then acc1 (xblk1 V c ⟨n + 1, hn⟩) (wblk1 V c ⟨n + 1, hn⟩) (k1_pay1 (F := F))
    else acc1 (xblk1 V c ⟨n + 1, hn⟩) (wblk1 V c ⟨n + 1, hn⟩) (accAt1 c n (Nat.lt_of_succ_lt hn))

theorem accAt1_first (c : Dev nD) (t : Fin cfg1.N) (h0 : t.val % 2 = 0) :
    accAt1 V c t.val t.isLt = acc1 (xblk1 V c t) (wblk1 V c t) (k1_pay1 (F := F)) := by
  obtain ⟨n, hn⟩ := t
  cases n with
  | zero => rfl
  | succ n => exact if_pos h0

theorem accAt1_next (c : Dev nD) (t : Fin cfg1.N) (h0 : ¬ t.val % 2 = 0) :
    accAt1 V c t.val t.isLt = acc1 (xblk1 V c t) (wblk1 V c t) (accAt1 V c (t.val - 1) (Nat.lt_of_le_of_lt (Nat.sub_le _ _) t.isLt)) := by
  obtain ⟨n, hn⟩ := t
  cases n with
  | zero => exact absurd (Nat.zero_mod _) h0
  | succ n => exact if_neg h0

/-- What the last step of a block stores into the output block. -/
abbrev out1At (c : Dev nD) (t : Fin cfg1.N) : Vec F S1024x512 .f32 :=
  k1_pay3 (zblk1 V c t) (accAt1 V c t.val t.isLt) (nblk1 V c t) (cblk1 V c t)

/-! ## The region invariant -/

/-- The scoped buffers other than the kernel's scratch and its windows' staging blocks, at anything. -/
abbrev rest1 (c : Dev nD) : sProp 𝕄 :=
  Pipeline.scopedRestBut (Ix := Unit) (Name := ℕ) (U := UR sig nD τ) (Lvl := ℕ) (Val := Elt F) spec1 c [cc1_scratch0]

/-- The class invariant with the scratch singled out. -/
theorem PhiA1_eq (c : Dev nD) :
    (Pipeline.ΦA spec1 c : sProp 𝕄)
      = iprop(((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [bigSepL_singleton, scM1, owns_whole]; try rfl

/-- The invariant before position `n`. -/
def PhiS1 (c : Dev nD) : (n : ℕ) → n ≤ cfg1.N → sProp 𝕄
  | 0, _ => Pipeline.ΦA spec1 c
  | n + 1, hn => iprop((owns (c : Thread nD τ) scM1 fullShare (accAt1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (accAt1 V c n hn) ∗ rest1 c) ∗ (∃ r, prngReg c r)) := rfl
theorem PhiS1_pos (c : Dev nD) (n : ℕ) (h : n ≤ cfg1.N) (hz : n ≠ 0) :
    PhiS1 V c n h = iprop((owns (c : Thread nD τ) scM1 fullShare (accAt1 V c (n - 1) (by omega)) ∗ rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1At V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1At V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  have hN : t.val < 128 := lt_of_lt_of_eq t.isLt (show cfg1.N = 128 from N_1)
  by_cases h1 : t.val % 2 = 1
  · -- the last step of a block: the output block is stored and written back
    have h0 : ¬ t.val % 2 = 0 := by omega
    have hz : t.val ≠ 0 := by omega
    rw [show (dat1 V c).leavesExact 5 t = owns (c : Thread nD τ) (st1_5 t) fullShare ((dat1 V c).after 5 t) from by
      unfold Dat.leavesExact; rw [liveAt1_5 t h1], after1_5]
    unfold out1At
    rw [accAt1_next V c t h0, PhiS1_castSucc V c t, PhiS1_pos V c _ _ hz]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (body1_last c (grid1.coords t) Set.univ _ _ _ _ _ _ _ _ _ _ _ _ _ _ (fun h => h0 ((hcond1_0 t).mp h)) ((hcond1_1 t).mpr h1)
      (xblk1 V c t) (wblk1 V c t) (zblk1 V c t) (nblk1 V c t) (cblk1 V c t)
      (accAt1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · -- the first step of a block: the scratch is reset, whatever it held
    have h0 : t.val % 2 = 0 := by omega
    rw [Dat.leavesExact_idle (dat1 V c) 5 t (idleAt1_5 t h1) (noFlush1_5 t h1)]
    rw [accAt1_first V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (body1_first c (grid1.coords t) Set.univ _ _ _ _ _ _ _ _ _ _ _ _ _ _ ((hcond1_0 t).mpr h0) (fun h => h1 ((hcond1_1 t).mp h))
        (xblk1 V c t) (wblk1 V c t) (zblk1 V c t) (nblk1 V c t) (cblk1 V c t) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (body1_first c (grid1.coords t) Set.univ _ _ _ _ _ _ _ _ _ _ _ _ _ _ ((hcond1_0 t).mpr h0) (fun h => h1 ((hcond1_1 t).mp h))
        (xblk1 V c t) (wblk1 V c t) (zblk1 V c t) (nblk1 V c t) (cblk1 V c t) _ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS, HR⟩, Hg⟩
  isplitl [HS HR]
  · isplitl [HS]; · iexists _; iexact HS
    iexact HR
  iexact Hg

end Cert.KernelIdeal.Hand

end
-- ==== Proof.KI.Run.lean ====
/-
  The run of the whole program.

  @main is a stretch of host operations, the two kernel regions, and one last host operation. Between two items a core
  holds every unscoped buffer whole, at contents that fold through the items: the launch memory; then the host
  operations' results; then, after each region, that region's arrays at what its write-backs leave and every other
  buffer as it was. Each region is entered from and left at such a state, the host stretches move it along their
  fold, and the launch theorem for a list of segments gives: every weakly fair execution terminates, and at the end
  every unscoped buffer holds the last fold's contents. No item writes an argument array, so each reads back as
  launched.
-/
import proofs.«125389_j10041633538618_1_alg».proof.Proof.Gen.KernelIdeal.Launch
import proofs.«125389_j10041633538618_1_alg».proof.Proof.Gen.KernelIdeal.Skeleton
import proofs.«125389_j10041633538618_1_alg».proof.Proof.Gen.KernelIdeal.Points
import proofs.«125389_j10041633538618_1_alg».proof.Proof.Gen.KernelIdeal.Regions
import proofs.«125389_j10041633538618_1_alg».proof.Proof.KI.Dat0
import proofs.«125389_j10041633538618_1_alg».proof.Proof.KI.Dat1
import Idealize.ShloMosaic.Lib.Pipeline.RegionsLoop
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the first host stretch (the first region's entry). -/
abbrev W1 : Dev nD → Valuation τ sig (Elt F) := fun c => StableHlo.after hostOps0 (W0 m c)
/-- The same read at the TensorCore's references: what the first region's proof data take. -/
abbrev Ent1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (Ent1 m) c).arrAt w cfg0.N
theorem W2_arr (c : Dev nD) (w : Fin cfg0.W) :
    W2 m c (Proc.devRef .tc (Pipeline.arrRef spec0 w)) = (dat0 (Ent1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references: what the second region's proof data take. -/
abbrev Ent2 : (c : Dev nD) → (b : Ref sig .tc) → Buf (Elt F) ((c : Thread nD τ).loc b) := fun c b => W2 m c b
theorem hF0 (c : Dev nD) (w : Fin cfg0.W) : (dat0 (Ent1 m) c).arrAt w cfg0.N = Ent2 m c (Pipeline.arrRef spec0 w) :=
  (W2_arr m c w).symm
theorem hrest0 (c : Dev nD) : ∀ b, b ∉ Finset.univ.image (Pipeline.arrRef spec0) → Ent2 m c b = Ent1 m c b :=
  fun b hb => W2_of_ne m c b fun w e => hb (Finset.mem_image.mpr ⟨w, Finset.mem_univ _, e⟩)
/-- At the second region's exit. -/
def W3 (c : Dev nD) : Valuation τ sig (Elt F) :=
  Pipeline.withArrays spec1 c (W2 m c) fun w => (dat1 (Ent2 m) c).arrAt w cfg1.N
theorem W3_arr (c : Dev nD) (w : Fin cfg1.W) :
    W3 m c (Proc.devRef .tc (Pipeline.arrRef spec1 w)) = (dat1 (Ent2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Ent3 : (c : Dev nD) → (b : Ref sig .tc) → Buf (Elt F) ((c : Thread nD τ).loc b) := fun c b => W3 m c b
theorem hF1 (c : Dev nD) (w : Fin cfg1.W) : (dat1 (Ent2 m) c).arrAt w cfg1.N = Ent3 m c (Pipeline.arrRef spec1 w) :=
  (W3_arr m c w).symm
theorem hrest1 (c : Dev nD) : ∀ b, b ∉ Finset.univ.image (Pipeline.arrRef spec1) → Ent3 m c b = Ent2 m c b :=
  fun b hb => W3_of_ne m c b fun w e => hb (Finset.mem_image.mpr ⟨w, Finset.mem_univ _, e⟩)
/-- After the last host operation: the contents the program ends with. -/
abbrev W4 : Dev nD → Valuation τ sig (Elt F) := fun c => StableHlo.after hostOps2 (W3 m c)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide : main_arg0 ∉ hostOps2_W)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide : main_arg1 ∉ hostOps2_W)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide : main_arg2 ∉ hostOps2_W)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide : main_arg3 ∉ hostOps2_W)
    _ = W2 m c (Proc.devRef .tc main_arg3) := W3_of_ne m c main_arg3 (by decide)
    _ = W1 m c (Proc.devRef .tc main_arg3) := (W2_arr m c 1).trans (((dat0 (Ent1 m) c).arrAt_in 1 rfl _).trans (A_eq0 (Ent1 m) c 1))
    _ = W0 m c (Proc.devRef .tc main_arg3) := StableHlo.after_of_writes_sub hostOps0 _ hostOps0_writes (by decide : main_arg3 ∉ hostOps0_W)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (by decide : main_arg4 ∉ hostOps2_W)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (by decide : main_arg4 ∉ hostOps0_W)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_writes_sub hostOps2 _ hostOps2_writes (by decide : main_arg5 ∉ hostOps2_W)
    _ = W2 m c (Proc.devRef .tc main_arg5) := (W3_arr m c 1).trans (((dat1 (Ent2 m) c).arrAt_in 1 rfl _).trans (A_eq1 (Ent2 m) c 1))
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := StableHlo.after_of_writes_sub hostOps2 _ hostOps2_writes (by decide : main_arg6 ∉ hostOps2_W)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_writes_sub hostOps0 _ hostOps0_writes (by decide : main_arg6 ∉ hostOps0_W)
    _ = m ((c : Thread nD τ).loc main_arg6) := rfl

theorem W4_main_arg7 (c : Dev nD) : W4 m c (Proc.devRef .tc main_arg7) = m ((c : Thread nD τ).loc main_arg7) :=
  calc W4 m c (Proc.devRef .tc main_arg7)
    _ = W3 m c (Proc.devRef .tc main_arg7) := StableHlo.after_of_writes_sub hostOps2 _ hostOps2_writes (by decide : main_arg7 ∉ hostOps2_W)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := StableHlo.after_of_writes_sub hostOps0 _ hostOps0_writes (by decide : main_arg7 ∉ hostOps0_W)
    _ = m ((c : Thread nD τ).loc main_arg7) := rfl

theorem W4_main_arg8 (c : Dev nD) : W4 m c (Proc.devRef .tc main_arg8) = m ((c : Thread nD τ).loc main_arg8) :=
  calc W4 m c (Proc.devRef .tc main_arg8)
    _ = W3 m c (Proc.devRef .tc main_arg8) := StableHlo.after_of_writes_sub hostOps2 _ hostOps2_writes (by decide : main_arg8 ∉ hostOps2_W)
    _ = W2 m c (Proc.devRef .tc main_arg8) := W3_of_ne m c main_arg8 (by decide)
    _ = W1 m c (Proc.devRef .tc main_arg8) := W2_of_ne m c main_arg8 (by decide)
    _ = W0 m c (Proc.devRef .tc main_arg8) := StableHlo.after_of_writes_sub hostOps0 _ hostOps0_writes (by decide : main_arg8 ∉ hostOps0_W)
    _ = m ((c : Thread nD τ).loc main_arg8) := rfl

theorem W4_main_arg9 (c : Dev nD) : W4 m c (Proc.devRef .tc main_arg9) = m ((c : Thread nD τ).loc main_arg9) :=
  calc W4 m c (Proc.devRef .tc main_arg9)
    _ = W3 m c (Proc.devRef .tc main_arg9) := StableHlo.after_of_writes_sub hostOps2 _ hostOps2_writes (by decide : main_arg9 ∉ hostOps2_W)
    _ = W2 m c (Proc.devRef .tc main_arg9) := W3_of_ne m c main_arg9 (by decide)
    _ = W1 m c (Proc.devRef .tc main_arg9) := W2_of_ne m c main_arg9 (by decide)
    _ = W0 m c (Proc.devRef .tc main_arg9) := StableHlo.after_of_writes_sub hostOps0 _ hostOps0_writes (by decide : main_arg9 ∉ hostOps0_W)
    _ = m ((c : Thread nD τ).loc main_arg9) := rfl

/-! ## The proof data family and the thread state -/

/-- Every pipeline's proof data, each at its region's entry contents. -/
def pdatsH : (p : Fin 2) → (c : Dev nD) → Dat τ (Elt F) Unit ℕ (UR sig nD τ) ℕ (Pipeline.pin (pcfgs (F := F)) adm p) c
  | ⟨0, _⟩ => fun c => dat0 (Ent1 m) c
  | ⟨1, _⟩ => fun c => dat1 (Ent2 m) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state and the core owing nothing. -/
abbrev RH (c : Dev nD) : sProp 𝕄 := iprop((∃ r, prngReg c r) ∗ ∃ W, owes (c : Thread nD τ) (0 : CellTallies nD τ sig Unit) W)
/-- A host stretch as a segment, from the contents `W`, `RH` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register and the scoped buffers
    go into the region invariant and come back; nothing is owed; the kernel has no semaphore of its own. -/
def reg0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Ent1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (Ent1 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (Ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ent1 m) c)
    unfold Pipeline.ΦA
    iintro ⟨Hp, -, Hr⟩
    isplitl [Hr]; · iexact Hr
    iexact Hp
  hout c := by
    refine (hout0 (Ent1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (Ent1 m c) (Ent2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at the exit contents; the generator register and the scoped buffers
    go into the region invariant and come back; nothing is owed; the kernel has no semaphore of its own. -/
def reg1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Ent2 m) c).loose
  hwaits := Pipeline.hwaits_of_owed_zero _ _ _ _ LH lvH 1 fun _ _ => rfl
  pre c := iprop(StableHlo.held (c : Thread nD τ) (Pipeline.ucRefs τ sig) (W2 m c) ∗ RH c)
  post c := iprop(StableHlo.held (c : Thread nD τ) (Pipeline.ucRefs τ sig) (W3 m c) ∗ RH c)
  X c := iprop(∃ r, prngReg c r)
  Y c := iprop(∃ r, prngReg c r)
  Z c := Pipeline.unscopedRest (Ix := Unit) (Name := ℕ) (U := UR sig nD τ) (Lvl := ℕ) spec1 c (Ent2 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (Ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Ent2 m) c)
    unfold Pipeline.ΦA
    iintro ⟨Hp, -, Hr⟩
    isplitl [Hr]; · iexact Hr
    iexact Hp
  hout c := by
    refine (hout1 (Ent2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (Ent2 m c) (Ent3 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) adm (pdatsH m) () defs₀ 𝒱H LH lvH) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segsH m) := (main_chain c).trans (by chain_rfl)

set_option backward.isDefEq.respectTransparency.types false in
/-- THE RUN: from any memory with zero counters every weakly fair execution of @main terminates, nothing faulting, and
    every final state holds each unscoped TensorCore buffer at the last fold's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdatsH m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun c => by
      show (iprop(StableHlo.held (c : Thread nD τ) (Pipeline.ucRefs τ sig) (W4 m c) ∗ RH c) : sProp 𝕄) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c)⟩) (run_all m ρ)

end Cert.KernelIdeal.Hand

end
-- ==== Proof.Spec.lean ====
/-
  What both programs compute, as one function of the argument arrays, index by index over the extended reals.

  With  P1 = Σ_k x1[a,s,k]·W1[k,o]  and  P2 = Σ_k x2[a,s,k]·W2[k,o]  the reference's entry at (a, s, o) is

      1 · tanh( 0.9·bucket[o] + ( (1/2)·((P1 + b1[o]) + (P2 + b2[o])) + b[o] + noise[a,s,o]·0.1 ) − 0.1·|prev[0,0,o]| ),

  while the kernel first forms  (1/2)·P1,  then adds  (1/2)·P2,  the scaled noise and one per-feature vector
  0.9·bucket − 0.1·|prev| + b + (1/2)·b1 + (1/2)·b2  inside the tanh. The literals 0.9, 0.1, 1/2 and 1 are the same
  binary words on both sides and are never evaluated. The two pre-activations differ by distributing 1/2 over a sum and
  by reordering sums and one difference: laws of the real numbers, so they agree wherever every entry is a real number
  (`kerArg_eq_refArg`), which the precondition gives.
-/
import Idealize.ShloMosaic.PureOps.Ideal
import Idealize.ShloMosaic.Lib.ValueIdx

noncomputable section

namespace Cert.Spec

open Idealize.ShloMosaic Idealize.ShloMosaic.ValueIdx

/-- The four float literals of the two programs, as the extended reals their words denote. -/
abbrev half : EReal := Ideal.ofBits .f32 0x3F000000#32
abbrev decay : EReal := Ideal.ofBits .f32 0x3F666666#32
abbrev tenth : EReal := Ideal.ofBits .f32 0x3DCCCCCD#32
abbrev unit : EReal := Ideal.ofBits .f32 0x3F800000#32

abbrev SX1 : Shape := ⟨3, ![4, 2048, 4096]⟩
abbrev SX2 : Shape := ⟨3, ![4, 2048, 2048]⟩
abbrev SW1 : Shape := ⟨2, ![4096, 4096]⟩
abbrev SW2 : Shape := ⟨2, ![2048, 4096]⟩
abbrev SV : Shape := ⟨1, ![4096]⟩
abbrev SP : Shape := ⟨3, ![1, 1, 4096]⟩

variable (x1 : SX1.Idx → EReal) (x2 : SX2.Idx → EReal) (nz : SX1.Idx → EReal) (W1 : SW1.Idx → EReal) (b1 : SV.Idx → EReal)
  (W2 : SW2.Idx → EReal) (b2 bb bucket : SV.Idx → EReal) (prev : SP.Idx → EReal)

/-- The first projection at row (a, s) and feature o. -/
def dot1 (a : Fin 4) (s : Fin 2048) (o : Fin 4096) : EReal := ∑ k : Fin 4096, x1 (ix3 a s k) * W1 (ix2 k o)
/-- The second projection at row (a, s) and feature o. -/
def dot2 (a : Fin 4) (s : Fin 2048) (o : Fin 4096) : EReal := ∑ k : Fin 2048, x2 (ix3 a s k) * W2 (ix2 k o)
/-- The absolute value of the previous output at feature o. -/
def absPrev (o : Fin 4096) : EReal := max (prev (ix3 0 0 o)) (-(prev (ix3 0 0 o)))

/-- The reference's pre-activation. -/
def refArg (a : Fin 4) (s : Fin 2048) (o : Fin 4096) : EReal :=
  (decay * bucket (ix1 o)
    + (((half * ((dot1 x1 W1 a s o + b1 (ix1 o)) + (dot2 x2 W2 a s o + b2 (ix1 o)))) + bb (ix1 o)) + nz (ix3 a s o) * tenth))
  - tenth * absPrev prev o

/-- The kernel's per-feature vector. -/
def featK (o : Fin 4096) : EReal :=
  (((decay * bucket (ix1 o) - tenth * absPrev prev o) + bb (ix1 o)) + half * b1 (ix1 o)) + half * b2 (ix1 o)

/-- The kernel's pre-activation. -/
def kerArg (a : Fin 4) (s : Fin 2048) (o : Fin 4096) : EReal :=
  ((half * dot1 x1 W1 a s o + half * dot2 x2 W2 a s o) + nz (ix3 a s o) * tenth) + featK b1 b2 bb bucket prev o

/-- The reference's result. -/
def G : SX1.Idx → EReal := fun i => unit * Ideal.tanh (refArg x1 x2 nz W1 b1 W2 b2 bb bucket prev (i 0) (i 1) (i 2))

/-- The kernel's result. -/
def Gk : SX1.Idx → EReal := fun i => unit * Ideal.tanh (kerArg x1 x2 nz W1 b1 W2 b2 bb bucket prev (i 0) (i 1) (i 2))

/-- Every entry of an array is a real number. -/
def AllReal {S : Shape} (x : S.Idx → EReal) : Prop := ∀ i, ∃ r : ℝ, x i = (r : EReal)

end Cert.Spec

end
-- ==== Proof.RefValue.lean ====
/-
  The reference program's result, read index by index, is the specification's function G.

  At the entry (a, s, o) each broadcast reads its operand at the feature o alone (a per-feature vector at ix1 o, the
  previous output at (0, 0, o)), each matrix product is the sum over the contracted index k of the left operand at
  (a, s, k) times the right at (k, o), and the scalar literals are read wherever they are broadcast. What is left is the
  specification's expression, term for term: no law of arithmetic is used, only the identification of the composed
  index maps with the coordinates.
-/
import proofs.«125389_j10041633538618_1_alg».proof.Proof.Gen.ReferenceIdeal.Read
import proofs.«125389_j10041633538618_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ### The composed index maps at the entry (a, s, o) -/

/-- The first product's left operand is read along row (a, s). -/
theorem lidx0 (a : Fin 4) (s : Fin 2048) (o k : Fin 4096) : lidx_main_v0 (ix3 a s o) k = ix3 a s k :=
  funext fun d => Fin.ext (by match d with | ⟨0, _⟩ => rfl | ⟨1, _⟩ => rfl | ⟨2, _⟩ => rfl)
/-- The first product's right operand is read down column o. -/
theorem ridx0 (a : Fin 4) (s : Fin 2048) (o k : Fin 4096) : ridx_main_v0 (ix3 a s o) k = ix2 k o :=
  funext fun d => Fin.ext (by match d with | ⟨0, _⟩ => rfl | ⟨1, _⟩ => rfl)
/-- The second product's left operand is read along row (a, s). -/
theorem lidx4 (a : Fin 4) (s : Fin 2048) (o : Fin 4096) (k : Fin 2048) : lidx_main_v4 (ix3 a s o) k = ix3 a s k :=
  funext fun d => Fin.ext (by match d with | ⟨0, _⟩ => rfl | ⟨1, _⟩ => rfl | ⟨2, _⟩ => rfl)
/-- The second product's right operand is read down column o. -/
theorem ridx4 (a : Fin 4) (s : Fin 2048) (o : Fin 4096) (k : Fin 2048) : ridx_main_v4 (ix3 a s o) k = ix2 k o :=
  funext fun d => Fin.ext (by match d with | ⟨0, _⟩ => rfl | ⟨1, _⟩ => rfl)
/-- The first bias, broadcast over rows, is read at the feature. -/
theorem idx_b1 (a : Fin 4) (s : Fin 2048) (o : Fin 4096) : idx_main_v1 (idx_main_v2 (ix3 a s o)) = ix1 o :=
  funext fun d => Fin.ext (by match d with | ⟨0, _⟩ => rfl)
/-- The second bias, broadcast over rows, is read at the feature. -/
theorem idx_b2 (a : Fin 4) (s : Fin 2048) (o : Fin 4096) : idx_main_v5 (idx_main_v6 (ix3 a s o)) = ix1 o :=
  funext fun d => Fin.ext (by match d with | ⟨0, _⟩ => rfl)
/-- The shared bias, broadcast over rows, is read at the feature. -/
theorem idx_bb (a : Fin 4) (s : Fin 2048) (o : Fin 4096) : idx_main_v11 (idx_main_v12 (ix3 a s o)) = ix1 o :=
  funext fun d => Fin.ext (by match d with | ⟨0, _⟩ => rfl)
/-- The scaled bucket vector, broadcast over rows, is read at the feature. -/
theorem idx_bucket (a : Fin 4) (s : Fin 2048) (o : Fin 4096) : idx_main_v19 (idx_main_v20 (ix3 a s o)) = ix1 o :=
  funext fun d => Fin.ext (by match d with | ⟨0, _⟩ => rfl)
/-- The previous output, broadcast over rows, is read at (0, 0, o). -/
theorem idx_prev (a : Fin 4) (s : Fin 2048) (o : Fin 4096) : idx_main_v25 (ix3 a s o) = ix3 0 0 o :=
  funext fun d => Fin.ext (by match d with | ⟨0, _⟩ => rfl | ⟨1, _⟩ => rfl | ⟨2, _⟩ => rfl)

/-- The reference run's result term is the specification's G of the ten argument arrays. -/
theorem result_eq (a0 : (⟨S4x2048x4096, .f32⟩ : BufTy).Contents (Elt Ideal)) (a1 : (⟨S4x2048x2048, .f32⟩ : BufTy).Contents (Elt Ideal)) (a2 : (⟨S4x2048x4096, .f32⟩ : BufTy).Contents (Elt Ideal)) (a3 : (⟨S4096x4096, .f32⟩ : BufTy).Contents (Elt Ideal)) (a4 : (⟨S4096, .f32⟩ : BufTy).Contents (Elt Ideal)) (a5 : (⟨S2048x4096, .f32⟩ : BufTy).Contents (Elt Ideal)) (a6 a7 a8 : (⟨S4096, .f32⟩ : BufTy).Contents (Elt Ideal)) (a9 : (⟨S1x1x4096, .f32⟩ : BufTy).Contents (Elt Ideal)) :
    (mulf (broadcastInDim S4x2048x4096 ![] bcast_S_S4x2048x4096 (constant S_ .f32 0x3F800000#32)) (Host.tanh (subf (addf (broadcastInDim S4x2048x4096 ![0, 1, 2] bcast_S1x1x4096_S4x2048x4096_0_1_2 (broadcastInDim S1x1x4096 ![2] bcast_S4096_S1x1x4096_2 (mulf (broadcastInDim S4096 ![] bcast_S_S4096 (constant S_ .f32 0x3F666666#32)) (a8)))) (addf (addf (mulf (broadcastInDim S4x2048x4096 ![] bcast_S_S4x2048x4096 (constant S_ .f32 0x3F000000#32)) (addf (addf (Host.dotGeneral (φ₁ := .f32) (φ₂ := .f32) dot_S4x2048x4096_S4096x4096_S4x2048x4096_2_0_01_1_n_n none (a0) (a3)) (broadcastInDim S4x2048x4096 ![0, 1, 2] bcast_S1x1x4096_S4x2048x4096_0_1_2 (broadcastInDim S1x1x4096 ![2] bcast_S4096_S1x1x4096_2 (a4)))) (addf (Host.dotGeneral (φ₁ := .f32) (φ₂ := .f32) dot_S4x2048x2048_S2048x4096_S4x2048x4096_2_0_01_1_n_n none (a1) (a5)) (broadcastInDim S4x2048x4096 ![0, 1, 2] bcast_S1x1x4096_S4x2048x4096_0_1_2 (broadcastInDim S1x1x4096 ![2] bcast_S4096_S1x1x4096_2 (a6)))))) (broadcastInDim S4x2048x4096 ![0, 1, 2] bcast_S1x1x4096_S4x2048x4096_0_1_2 (broadcastInDim S1x1x4096 ![2] bcast_S4096_S1x1x4096_2 (a7)))) (mulf (a2) (broadcastInDim S4x2048x4096 ![] bcast_S_S4x2048x4096 (constant S_ .f32 0x3DCCCCCD#32))))) (broadcastInDim S4x2048x4096 ![0, 1, 2] bcast_S1x1x4096_S4x2048x4096_0_1_2 (mulf (broadcastInDim S1x1x4096 ![] bcast_S_S1x1x4096 (constant S_ .f32 0x3DCCCCCD#32)) (Host.absf (a9)))))) : FVec Ideal S4x2048x4096 .f32)
      = Cert.Spec.G a0 a1 a2 a3 a4 a5 a6 a7 a8 a9 := by
  -- The run's term is the last stage of the program read one operation at a time.
  rw [val_main_v29_eq]
  funext i
  obtain ⟨a, s, o, rfl⟩ : ∃ a s o, i = ix3 a s o := ⟨i 0, i 1, i 2, eq_ix3 i⟩
  -- Every stage at the entry (a, s, o), outermost first.
  rw [val_main_v29_apply, val_main_v28_apply, val_main_cst_3_apply, val_main_v27_apply, val_main_v26_apply,
    val_main_v21_apply, val_main_v20_apply, val_main_v19_apply, val_main_v18_apply, val_main_v17_apply, val_main_cst_1_apply,
    val_main_v16_apply, val_main_v13_apply, val_main_v10_apply, val_main_v9_apply, val_main_cst_apply, val_main_v8_apply,
    val_main_v3_apply, val_main_v0_apply, val_main_v2_apply, val_main_v1_apply, val_main_v7_apply, val_main_v4_apply,
    val_main_v6_apply, val_main_v5_apply, val_main_v12_apply, val_main_v11_apply, val_main_v15_apply, val_main_v14_apply,
    val_main_cst_0_apply, val_main_v25_apply, val_main_v24_apply, val_main_v23_apply, val_main_cst_2_apply, val_main_v22_apply]
  -- The index maps become coordinates and the operations become those of the extended reals.
  simp only [lidx0, ridx0, lidx4, ridx4, idx_b1, idx_b2, idx_bb, idx_bucket, idx_prev, Ideal.mulf_def, Ideal.addf_def,
    Ideal.subf_def, Ideal.hostAbsf_def, Ideal.hostUnary_tanh_def, Ideal.ofBits_def]
  -- What is left is G at (a, s, o) written out: the absolute value of x on the extended reals is max x (-x), and the
  -- coordinates of the index (a, s, o) are a, s and o.
  rfl

end Cert.ReferenceIdeal.RefValue

end
-- ==== Proof.Algebra.lean ====
/-
  The kernel's pre-activation equals the reference's wherever every array entry is a real number.

  Every atom of the two expressions is then a real number: the array entries by hypothesis, the two projections as
  finite sums of products of reals, |prev| as the larger of a real and its negative, and the three literals because
  their words are finite patterns. Writing each atom as the coercion of a real and pushing the coercions outward, both
  sides become coercions of real expressions, and those agree by distributing 1/2 over a sum and reordering sums and
  one difference in the field of real numbers.
-/
import proofs.«125389_j10041633538618_1_alg».proof.Proof.Spec
import Mathlib.Data.EReal.Basic
import Mathlib.Data.EReal.Operations
import Mathlib.Algebra.BigOperators.Group.Finset.Basic
import Mathlib.Tactic.Ring
import Mathlib.Tactic.NormNum

noncomputable section

namespace Cert.Spec

open Idealize.ShloMosaic Idealize.ShloMosaic.ValueIdx

/-- The word of 1/2 denotes a real number. -/
theorem half_real : ∃ r : ℝ, half = (r : EReal) := by
  refine ⟨?_, ?_⟩
  swap
  · simp [half, Ideal.ofBits, Ideal.ieee, -EReal.coe_mul]
    rfl

/-- The word of 0.9 denotes a real number. -/
theorem decay_real : ∃ r : ℝ, decay = (r : EReal) := by
  refine ⟨?_, ?_⟩
  swap
  · simp [decay, Ideal.ofBits, Ideal.ieee, -EReal.coe_mul]
    rfl

/-- The word of 0.1 denotes a real number. -/
theorem tenth_real : ∃ r : ℝ, tenth = (r : EReal) := by
  refine ⟨?_, ?_⟩
  swap
  · simp [tenth, Ideal.ofBits, Ideal.ieee, -EReal.coe_mul]
    rfl

/-- A finite sum of real numbers is a real number. -/
theorem sum_real {ι : Type} (t : Finset ι) (f : ι → EReal) (h : ∀ i, ∃ r : ℝ, f i = (r : EReal)) :
    ∃ r : ℝ, ∑ i ∈ t, f i = (r : EReal) := by
  classical
  induction t using Finset.induction_on with
  | empty => exact ⟨0, by simp⟩
  | insert a t ha ih =>
    obtain ⟨r, hr⟩ := ih
    obtain ⟨q, hq⟩ := h a
    exact ⟨q + r, by rw [Finset.sum_insert ha, hq, hr, EReal.coe_add]⟩

/-- A product of two real numbers is a real number. -/
theorem mul_real {x y : EReal} (hx : ∃ r : ℝ, x = (r : EReal)) (hy : ∃ r : ℝ, y = (r : EReal)) :
    ∃ r : ℝ, x * y = (r : EReal) := by
  obtain ⟨r, rfl⟩ := hx
  obtain ⟨q, rfl⟩ := hy
  exact ⟨r * q, (EReal.coe_mul r q).symm⟩

variable (x1 : SX1.Idx → EReal) (x2 : SX2.Idx → EReal) (nz : SX1.Idx → EReal) (W1 : SW1.Idx → EReal) (b1 : SV.Idx → EReal)
  (W2 : SW2.Idx → EReal) (b2 bb bucket : SV.Idx → EReal) (prev : SP.Idx → EReal)

/-- The first projection of real arrays is a real number. -/
theorem dot1_real (hx1 : AllReal x1) (hW1 : AllReal W1) (a : Fin 4) (s : Fin 2048) (o : Fin 4096) :
    ∃ r : ℝ, dot1 x1 W1 a s o = (r : EReal) :=
  sum_real _ _ fun k => mul_real (hx1 (ix3 a s k)) (hW1 (ix2 k o))

/-- The second projection of real arrays is a real number. -/
theorem dot2_real (hx2 : AllReal x2) (hW2 : AllReal W2) (a : Fin 4) (s : Fin 2048) (o : Fin 4096) :
    ∃ r : ℝ, dot2 x2 W2 a s o = (r : EReal) :=
  sum_real _ _ fun k => mul_real (hx2 (ix3 a s k)) (hW2 (ix2 k o))

/-- The absolute value of a real previous output is a real number. -/
theorem absPrev_real (hpv : AllReal prev) (o : Fin 4096) : ∃ r : ℝ, absPrev prev o = (r : EReal) := by
  obtain ⟨p, hp⟩ := hpv (ix3 0 0 o)
  refine ⟨max p (-p), ?_⟩
  unfold absPrev
  rw [hp, ← EReal.coe_neg]
  exact (EReal.coe_strictMono.monotone.map_max).symm

/-- The two pre-activations agree on real data: distribute 1/2 over the sum and reorder. -/
theorem kerArg_eq_refArg (hx1 : AllReal x1) (hx2 : AllReal x2) (hnz : AllReal nz) (hW1 : AllReal W1)
    (hb1 : AllReal b1) (hW2 : AllReal W2) (hb2 : AllReal b2) (hbb : AllReal bb) (hbk : AllReal bucket)
    (hpv : AllReal prev) (a : Fin 4) (s : Fin 2048) (o : Fin 4096) :
    kerArg x1 x2 nz W1 b1 W2 b2 bb bucket prev a s o = refArg x1 x2 nz W1 b1 W2 b2 bb bucket prev a s o := by
  obtain ⟨h, hh⟩ := half_real
  obtain ⟨g, hg⟩ := decay_real
  obtain ⟨t, ht⟩ := tenth_real
  obtain ⟨S1, hS1⟩ := dot1_real x1 W1 hx1 hW1 a s o
  obtain ⟨S2, hS2⟩ := dot2_real x2 W2 hx2 hW2 a s o
  obtain ⟨p, hp⟩ := absPrev_real prev hpv o
  obtain ⟨n, hn⟩ := hnz (ix3 a s o)
  obtain ⟨c1, hc1⟩ := hb1 (ix1 o)
  obtain ⟨c2, hc2⟩ := hb2 (ix1 o)
  obtain ⟨c, hc⟩ := hbb (ix1 o)
  obtain ⟨bk, hbk'⟩ := hbk (ix1 o)
  unfold kerArg refArg featK
  rw [hh, hg, ht, hS1, hS2, hp, hn, hc1, hc2, hc, hbk']
  simp only [← EReal.coe_mul, ← EReal.coe_add, ← EReal.coe_sub]
  exact congrArg _ (by ring)

/-- The two results agree on real data. -/
theorem Gk_eq_G (hx1 : AllReal x1) (hx2 : AllReal x2) (hnz : AllReal nz) (hW1 : AllReal W1)
    (hb1 : AllReal b1) (hW2 : AllReal W2) (hb2 : AllReal b2) (hbb : AllReal bb) (hbk : AllReal bucket)
    (hpv : AllReal prev) :
    Gk x1 x2 nz W1 b1 W2 b2 bb bucket prev = G x1 x2 nz W1 b1 W2 b2 bb bucket prev := by
  funext i
  exact congrArg (fun z => unit * Ideal.tanh z)
    (kerArg_eq_refArg x1 x2 nz W1 b1 W2 b2 bb bucket prev hx1 hx2 hnz hW1 hb1 hW2 hb2 hbb hbk hpv (i 0) (i 1) (i 2))

end Cert.Spec

end
-- ==== Proof.Finite.lean ====
/-
  From the precondition to "every entry of every argument array is a real number".

  The precondition is a conjunction of ten tests, one per argument array x, each saying that |x i| < +∞ at every
  index i. Over the extended reals |x| is max x (−x), and max x (−x) < ⊤ excludes both x = ⊤ and x = ⊥ (there
  −x = ⊤), so x is the image of a real number. A conjunction of one-bit words is 1 exactly when each word is 1, and
  a reduction by "and" over all axes is 1 exactly when every reduced word is 1; the comparison word at an index is 1
  exactly when the strict inequality holds there.
-/
import proofs.«125389_j10041633538618_1_alg».proof.Pre_finite_inputs
import proofs.«125389_j10041633538618_1_alg».proof.Proof.Gen.Pre_finite_inputs
import proofs.«125389_j10041633538618_1_alg».proof.Proof.Spec
import Idealize.ShloMosaic.Lib.ReduceAll
import Idealize.ShloMosaic.Lib.ValueIdx
import Idealize.ShloMosaic.Lib.WordArith
import Idealize.ShloMosaic.PureOps.Ideal

noncomputable section

namespace Cert.Finite

open Idealize.ShloMosaic Idealize.ShloMosaic.ValueIdx Cert.Pre_finite_inputs

/-- The shape with no axes has exactly one index. -/
instance : Subsingleton S_.Idx := ⟨fun a b => funext fun d => d.elim0⟩

/-- An extended real whose absolute value max x (−x) lies below ⊤ is a real number: at x = ⊤ the maximum is ⊤, and at
    x = ⊥ it is −⊥ = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One conjunct, over any shape: if the conjunction over all indices i of the words "|x i| < +∞" is 1, every entry
    of x is a real number. The word 0x7F800000 denotes ⊤. -/
theorem allReal_of_all {S : Shape} {axes : List (Fin S.rank)} (hb : S_.BroadcastsInDim S (![] : Fin 0 → Fin S.rank))
    (hr : S.ReducesTo axes S_) (hu : 0 < S_.numel) (x : FVec Ideal S .f32)
    (h : Host.reduce IntOp.andi (cmpf (F := Ideal) .olt (Host.absf x) (broadcastInDim S ![] hb (constant S_ .f32 0x7F800000#32)))
          (constantI S_ 1 1#1) hr hu ix0 = 1#1) :
    Cert.Spec.AllReal x := by
  intro i
  have e := Host.reduce_andi_all _ _ hr hu ix0 h i
  dsimp only [cmpf, Host.absf, broadcastInDim, constant] at e
  have e1 : BitVec.ofBool (decide (max (x i) (-(x i)) < Ideal.ofBits .f32 0x7F800000#32)) = 1#1 := e
  have ht : Ideal.ofBits .f32 0x7F800000#32 = ⊤ := by simp [Ideal.ofBits, Ideal.ieee]
  rw [ht, WordArith.ofBool_eq_one_iff, decide_eq_true_eq] at e1
  exact real_of_abs_lt_top _ e1

/-- The precondition gives: every entry of each of the ten argument arrays is a real number. -/
theorem allReal_of_pre [Cert.Pre_finite_inputs.Facts]
    (a0 : FVec Ideal S4x2048x4096 .f32) (a1 : FVec Ideal S4x2048x2048 .f32) (a2 : FVec Ideal S4x2048x4096 .f32)
    (a3 : FVec Ideal S4096x4096 .f32) (a4 : FVec Ideal S4096 .f32) (a5 : FVec Ideal S2048x4096 .f32)
    (a6 : FVec Ideal S4096 .f32) (a7 : FVec Ideal S4096 .f32) (a8 : FVec Ideal S4096 .f32) (a9 : FVec Ideal S1x1x4096 .f32)
    (h : Cert.Pre_finite_inputs.fn (F := Ideal) a0 a1 a2 a3 a4 a5 a6 a7 a8 a9 = fun _ => 1#1) :
    Cert.Spec.AllReal a0 ∧ Cert.Spec.AllReal a1 ∧ Cert.Spec.AllReal a2 ∧ Cert.Spec.AllReal a3 ∧ Cert.Spec.AllReal a4
      ∧ Cert.Spec.AllReal a5 ∧ Cert.Spec.AllReal a6 ∧ Cert.Spec.AllReal a7 ∧ Cert.Spec.AllReal a8 ∧ Cert.Spec.AllReal a9 := by
  -- the value at the one index of the result, as a left-nested conjunction of ten words
  have h0 := congrFun h ix0
  dsimp only [fn, fn_part1, fn_part2, Idealize.ShloMosaic.andi] at h0
  simp only [IntOp.andi_eq_one] at h0
  obtain ⟨⟨⟨⟨⟨⟨⟨⟨⟨c0, c1⟩, c2⟩, c3⟩, c4⟩, c5⟩, c6⟩, c7⟩, c8⟩, c9⟩ := h0
  exact ⟨allReal_of_all _ _ _ a0 c0, allReal_of_all _ _ _ a1 c1, allReal_of_all _ _ _ a2 c2, allReal_of_all _ _ _ a3 c3,
    allReal_of_all _ _ _ a4 c4, allReal_of_all _ _ _ a5 c5, allReal_of_all _ _ _ a6 c6, allReal_of_all _ _ _ a7 c7,
    allReal_of_all _ _ _ a8 c8, allReal_of_all _ _ _ a9 c9⟩

end Cert.Finite

end
-- ==== Proof.Assemble.lean ====
/-
  The five claims, assembled.

  The two kernel programs' frames are the run of the whole program read at the argument arrays (the word-level program's
  from the copy of the same modules in its own namespace). The reference's frame is its run with the result dropped. The
  idealization rewrote nothing, so it is preserved trivially. For the equivalence: the idealized kernel ends with its
  result at the kernel's arrangement `Gk` of the argument arrays (the run of the program, the two regions' results and
  the host operations around them), the reference ends at the reference's arrangement `G`, the two memories agree on the
  arguments, and where every entry of every argument is a real number — which the precondition says — `Gk = G`.
-/
import proofs.«125389_j10041633538618_1_alg».proof.Defs
import proofs.«125389_j10041633538618_1_alg».proof.Proof.Gen.Kernel
import proofs.«125389_j10041633538618_1_alg».proof.Proof.Gen.KernelIdeal
import proofs.«125389_j10041633538618_1_alg».proof.Proof.Gen.ReferenceIdeal
import proofs.«125389_j10041633538618_1_alg».proof.Proof.Gen.Pre_finite_inputs
import proofs.«125389_j10041633538618_1_alg».proof.Proof.K.Run
import proofs.«125389_j10041633538618_1_alg».proof.Proof.KI.Run
import proofs.«125389_j10041633538618_1_alg».proof.Proof.RefValue
import proofs.«125389_j10041633538618_1_alg».proof.Proof.Algebra
import proofs.«125389_j10041633538618_1_alg».proof.Proof.Finite

noncomputable section

namespace Cert.Proof.Claims

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-- The kernel's value claim: at the end the result buffer holds the kernel's arrangement of the argument arrays. -/
def KernelValue : Prop :=
  ∀ (m : (ℓ : Loc Cert.KernelIdeal.nD Cert.KernelIdeal.τ Cert.KernelIdeal.sig) → Buf (Elt Ideal) ℓ) (c : Dev Cert.KernelIdeal.nD),
    Cert.KernelIdeal.Hand.W4 (F := Ideal) m c (Proc.devRef .tc Cert.KernelIdeal.main_v20)
      = Cert.Spec.Gk (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))

open Cert.KernelIdeal Cert.KernelIdeal.Hand in
/-- The idealized kernel's run with its result named. -/
theorem kernel_run (hv : KernelValue) (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v20) = Cert.Spec.Gk (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run Cert.KernelIdeal.defs _ _).mono (fun _ h c => ⟨
    (h c _ (mem_uc main_v20 (by decide))).trans (hv m c),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c)⟩) (run_all m ρ)

/-- The equivalence, given the kernel's value claim. -/
theorem algebraic_of (hv : KernelValue) : Cert.algebraic_KernelIdeal_ReferenceIdeal := by
  intro m ρ m' ρ' hpre hagree
  refine ⟨_, kernel_run hv m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [h0, h1, h2, h3, h4, h5, h6, h7, h8, h9]
  obtain ⟨r0, r1, r2, r3, r4, r5, r6, r7, r8, r9⟩ := Cert.Finite.allReal_of_pre _ _ _ _ _ _ _ _ _ _ (hpre c)
  exact (Cert.ReferenceIdeal.RefValue.result_eq _ _ _ _ _ _ _ _ _ _).trans
    (Cert.Spec.Gk_eq_G _ _ _ _ _ _ _ _ _ _ r0 r1 r2 r3 r4 r5 r6 r7 r8 r9).symm

end Cert.Proof.Claims

end
-- ==== Proof.SpecK.lean ====
/-
  The two kernel regions' results as whole-array functions of the arrays they read, over the extended reals.

  The first region reads a matrix X [8192, 4096] and a matrix W [4096, 4096] and leaves  (1/2)·(X·W).
  The second reads X2 [8192, 2048], W2 [2048, 4096], the first region's result Z, the noise N [8192, 4096] and a row
  vector C [1, 4096], and leaves  1 · tanh( Z + (1/2)·(X2·W2) + N·0.1 + C )  with C repeated down the rows.
-/
import proofs.«125389_j10041633538618_1_alg».proof.Proof.Spec

noncomputable section

namespace Cert.Spec

open Idealize.ShloMosaic Idealize.ShloMosaic.ValueIdx

abbrev SF1 : Shape := ⟨2, ![8192, 4096]⟩
abbrev SF2 : Shape := ⟨2, ![8192, 2048]⟩
abbrev SRow : Shape := ⟨2, ![1, 4096]⟩

/-- The first region's result: one half of the matrix product. -/
def Zfun (X : SF1.Idx → EReal) (W : SW1.Idx → EReal) : SF1.Idx → EReal :=
  fun i => half * ∑ k : Fin 4096, X (ix2 (i 0) k) * W (ix2 k (i 1))

/-- The second region's result. -/
def Yfun (X2 : SF2.Idx → EReal) (W2 : SW2.Idx → EReal) (Z N : SF1.Idx → EReal) (C : SRow.Idx → EReal) : SF1.Idx → EReal :=
  fun i => unit * Ideal.tanh (((Z i + half * ∑ k : Fin 2048, X2 (ix2 (i 0) k) * W2 (ix2 k (i 1))) + N i * tenth) + C (ix2 0 (i 1)))

end Cert.Spec

end
-- ==== Proof.KI.Value0.lean ====
/-
  The value the first matrix product's region leaves in its output array: one half of the matrix product.

  The grid has 8 × 8 × 4 points, the last coordinate fastest: point t is step t mod 4 of the output block in block row
  t / 32 and block column t / 4 mod 8. At that point the left block is rows (t / 32)·1024 … and columns (t mod 4)·1024 …
  of the left array X, the right block rows (t mod 4)·1024 … and columns (t / 4 mod 8)·512 … of the right array W. One
  step adds to the scratch, entry by entry, the product of the two blocks there: chunk t mod 4, of 1024 terms, of the
  entry's contraction  Σ_k X[r,k]·W[k,c]. The scratch starts a block at zero, so after step s it holds chunks 0 … s
  (induction over the points), and after step 3 the whole contraction: 4096 terms regrouped as four chunks of 1024, which
  uses only that addition of extended reals is commutative and associative. The block stored at step 3 is one half of
  the scratch, and the blocks written back at the steps 3 tile the [8192, 4096] array, which therefore ends at
  (1/2)·(X·W), entry by entry.
-/
import proofs.«125389_j10041633538618_1_alg».proof.Proof.KI.Dat0
import proofs.«125389_j10041633538618_1_alg».proof.Proof.SpecK
import Idealize.ShloMosaic.Lib.Pipeline.Value
import Idealize.ShloMosaic.Lib.ValueIdx
import Idealize.ShloMosaic.PureOps.Ideal.Laws
import Mathlib.Algebra.BigOperators.Fin
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The matrix product's operand indices -/

theorem lhs_k0_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_k0_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_k0_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_k0_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- One step of the accumulation at an entry: what the scratch held there plus the product of the two blocks there. -/
theorem acc0_apply (x : Vec Ideal S1024x1024 .f32) (w : Vec Ideal S1024x512 .f32) (s : Vec Ideal S1024x512 .f32)
    (p : Fin 1024) (q : Fin 512) :
    (acc0 x w s : S1024x512.Idx → EReal) (ix2 p q) = (s : S1024x512.Idx → EReal) (ix2 p q) + ∑ k : Fin 1024, (x : S1024x1024.Idx → EReal) (ix2 p k) * (w : S1024x512.Idx → EReal) (ix2 k q) := by
  unfold acc0 k0_pay2
  simp only [shapeCast_self]
  rw [addf_apply]
  refine congrArg (fun z => (s : S1024x512.Idx → EReal) (ix2 p q) + z) ?_
  simp only [matmul]
  rw [Ideal.matmul_constant_zero_apply, ← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 p q) ((ValueIdx.contrEquiv1 dot_S1024x1024_S1024x512_S1024x512_1_0_0_1_n_n 1024 rfl rfl).symm k) = ix2 p k := funext fun a => Fin.ext (by
    match a with
    | ⟨0, _⟩ => exact lhs_k0_0 _ _
    | ⟨1, _⟩ => exact (lhs_k0_1 _ _).trans hk)
  have er : dot_S1024x1024_S1024x512_S1024x512_1_0_0_1_n_n.rhsIdx (ix2 p q) ((ValueIdx.contrEquiv1 dot_S1024x1024_S1024x512_S1024x512_1_0_0_1_n_n 1024 rfl rfl).symm k) = ix2 k q := funext fun a => Fin.ext (by
    match a with
    | ⟨0, _⟩ => exact (rhs_k0_0 _ _).trans hk
    | ⟨1, _⟩ => exact rhs_k0_1 _ _)
  rw [el, er]
  rfl

/-- The block the accumulation starts from is zero. -/
theorem k0_pay1_apply (i : S1024x512.Idx) : (k0_pay1 (F := Ideal) : S1024x512.Idx → EReal) i = 0 := by
  unfold k0_pay1
  simp only [shapeCast_self]
  show Ideal.ofBits .f32 0x00000000#32 = 0
  exact Ideal.ofBits_zero_f32

/-- The stored block is one half of the scratch, entry by entry. -/
theorem k0_pay3_apply (v : Vec Ideal S1024x512 .f32) (i : S1024x512.Idx) :
    (k0_pay3 v : S1024x512.Idx → EReal) i = Cert.Spec.half * (v : S1024x512.Idx → EReal) i := rfl

/-! ## The three windows' blocks over the grid -/

variable (V : (c : Dev nD) → (b : Ref sig .tc) → Buf (Elt Ideal) ((c : Thread nD τ).loc b))

/-- Point t is step t mod 4 of the output block in block row t / 32 and block column t / 4 mod 8. -/
theorem idx_facts0 : ∀ t : Fin cfg0.N,
    win0_0.index t (0 : Fin 2) = t.val / 32 ∧ win0_0.index t (1 : Fin 2) = t.val % 4
  ∧ win0_1.index t (0 : Fin 2) = t.val % 4 ∧ win0_1.index t (1 : Fin 2) = t.val / 4 % 8
  ∧ win0_2.index t (0 : Fin 2) = t.val / 32 ∧ win0_2.index t (1 : Fin 2) = t.val / 4 % 8 :=
  (by decide +kernel : ∀ t : Fin grid0.N, _)

/-- The two arrays the region reads, as it finds them. -/
abbrev xarr0 (c : Dev nD) : S8192x4096.Idx → EReal := V c main_v0
abbrev warr0 (c : Dev nD) : S4096x4096.Idx → EReal := V c main_arg3

/-- The left block at point t is rows (t / 32)·1024 … and columns (t mod 4)·1024 … of the left array. -/
theorem xblk0_apply (c : Dev nD) (t : Fin cfg0.N) (p k : Fin 1024) (r : Fin 8192) (kk : Fin 4096)
    (hr : r.val = t.val / 32 * 1024 + p.val) (hk : kk.val = t.val % 4 * 1024 + k.val) :
    (xblk0 V c t : S1024x1024.Idx → EReal) (ix2 p k) = xarr0 V c (ix2 r kk) := by
  obtain ⟨e0, e1, -⟩ := idx_facts0 t
  unfold xblk0 iblk0
  rw [View.read_apply]
  show V c main_v0 _ = V c main_v0 _
  congr 1
  funext a
  apply Fin.ext
  match a with
  | ⟨0, _⟩ => show win0_0.index t 0 * 1024 + 1 * p.val = r.val; rw [e0, hr]; omega
  | ⟨1, _⟩ => show win0_0.index t 1 * 1024 + 1 * k.val = kk.val; rw [e1, hk]; omega

/-- The right block at point t is rows (t mod 4)·1024 … and columns (t / 4 mod 8)·512 … of the right array. -/
theorem wblk0_apply (c : Dev nD) (t : Fin cfg0.N) (k : Fin 1024) (q : Fin 512) (kk : Fin 4096) (cc : Fin 4096)
    (hk : kk.val = t.val % 4 * 1024 + k.val) (hc : cc.val = t.val / 4 % 8 * 512 + q.val) :
    (wblk0 V c t : S1024x512.Idx → EReal) (ix2 k q) = warr0 V c (ix2 kk cc) := by
  obtain ⟨-, -, e0, e1, -⟩ := idx_facts0 t
  unfold wblk0 iblk0
  rw [View.read_apply]
  show V c main_arg3 _ = V c main_arg3 _
  congr 1
  funext a
  apply Fin.ext
  match a with
  | ⟨0, _⟩ => show win0_1.index t 0 * 1024 + 1 * k.val = kk.val; rw [e0, hk]; omega
  | ⟨1, _⟩ => show win0_1.index t 1 * 512 + 1 * q.val = cc.val; rw [e1, hc]; omega

/-! ## The contraction in four chunks -/

/-- Chunk s of 1024 of the contraction of row r with column cc (zero past the fourth chunk). -/
def chunk0 (X : S8192x4096.Idx → EReal) (W : S4096x4096.Idx → EReal) (r : Fin 8192) (cc : Fin 4096) (s : ℕ) : EReal :=
  if h : s < 4 then ∑ k : Fin 1024, X (ix2 r ⟨s * 1024 + k.val, by have := k.isLt; omega⟩) * W (ix2 ⟨s * 1024 + k.val, by have := k.isLt; omega⟩ cc) else 0

/-- A sum over 4096 terms is the sum of its four chunks of 1024. -/
theorem sum_four_chunks0 {M : Type*} [AddCommMonoid M] (f : Fin 4096 → M) :
    ∑ k : Fin 4096, f k = ∑ s : Fin 4, ∑ k : Fin 1024, f ⟨s.val * 1024 + k.val, by have := s.isLt; have := k.isLt; omega⟩ := by
  refine ((Equiv.sum_comp (finProdFinEquiv : Fin 4 × Fin 1024 ≃ Fin (4 * 1024)) f).symm).trans ?_
  rw [Fintype.sum_prod_type]
  refine Finset.sum_congr rfl fun s _ => Finset.sum_congr rfl fun k _ => congrArg f (Fin.ext ?_)
  show k.val + 1024 * s.val = s.val * 1024 + k.val
  omega

/-- The four chunks together are the whole contraction. -/
theorem sum_chunk0 (X : S8192x4096.Idx → EReal) (W : S4096x4096.Idx → EReal) (r : Fin 8192) (cc : Fin 4096) :
    ∑ s ∈ Finset.range 4, chunk0 X W r cc s = ∑ k : Fin 4096, X (ix2 r k) * W (ix2 k cc) := by
  rw [Finset.sum_range, sum_four_chunks0 (fun k => X (ix2 r k) * W (ix2 k cc))]
  refine Finset.sum_congr rfl fun s _ => ?_
  unfold chunk0
  rw [dif_pos s.isLt]

/-- The product of the two blocks at point t, at an entry, is chunk t mod 4 of that entry's contraction. -/
theorem step_chunk0 (c : Dev nD) (t : Fin cfg0.N) (p : Fin 1024) (q : Fin 512) (r : Fin 8192) (cc : Fin 4096)
    (hr : r.val = t.val / 32 * 1024 + p.val) (hc : cc.val = t.val / 4 % 8 * 512 + q.val) :
    ∑ k : Fin 1024, (xblk0 V c t : S1024x1024.Idx → EReal) (ix2 p k) * (wblk0 V c t : S1024x512.Idx → EReal) (ix2 k q)
      = chunk0 (xarr0 V c) (warr0 V c) r cc (t.val % 4) := by
  unfold chunk0
  rw [dif_pos (Nat.mod_lt _ (by decide))]
  refine Finset.sum_congr rfl fun k _ => ?_
  rw [xblk0_apply V c t p k r ⟨t.val % 4 * 1024 + k.val, by have := k.isLt; omega⟩ hr rfl,
    wblk0_apply V c t k q ⟨t.val % 4 * 1024 + k.val, by have := k.isLt; omega⟩ cc rfl hc]

/-! ## The scratch after each point -/

/-- After point n the scratch holds, at each entry, the chunks 0 … n mod 4 of that entry's contraction. -/
theorem accAt0_apply (c : Dev nD) (n : ℕ) : ∀ (hn : n < cfg0.N) (p : Fin 1024) (q : Fin 512) (r : Fin 8192) (cc : Fin 4096),
    r.val = n / 32 * 1024 + p.val → cc.val = n / 4 % 8 * 512 + q.val →
    (accAt0 V c n hn : S1024x512.Idx → EReal) (ix2 p q) = ∑ s ∈ Finset.range (n % 4 + 1), chunk0 (xarr0 V c) (warr0 V c) r cc s := by
  induction n with
  | zero =>
    intro hn p q r cc hr hc
    refine (congrFun (accAt0_first V c ⟨0, hn⟩ rfl) (ix2 p q)).trans ?_
    refine (acc0_apply (xblk0 V c ⟨0, hn⟩) (wblk0 V c ⟨0, hn⟩) (k0_pay1 (F := Ideal)) p q).trans ?_
    rw [k0_pay1_apply, zero_add, step_chunk0 V c ⟨0, hn⟩ p q r cc hr hc]
    show chunk0 _ _ r cc 0 = ∑ s ∈ Finset.range 1, _
    rw [Finset.sum_range_one]
  | succ m ih =>
    intro hn p q r cc hr hc
    by_cases h0 : (m + 1) % 4 = 0
    · refine (congrFun (accAt0_first V c ⟨m + 1, hn⟩ h0) (ix2 p q)).trans ?_
      refine (acc0_apply (xblk0 V c ⟨m + 1, hn⟩) (wblk0 V c ⟨m + 1, hn⟩) (k0_pay1 (F := Ideal)) p q).trans ?_
      rw [k0_pay1_apply, zero_add, step_chunk0 V c ⟨m + 1, hn⟩ p q r cc hr hc]
      show chunk0 _ _ r cc ((m + 1) % 4) = _
      rw [h0, Finset.sum_range_one]
    · refine (congrFun (accAt0_next V c ⟨m + 1, hn⟩ h0) (ix2 p q)).trans ?_
      refine (acc0_apply (xblk0 V c ⟨m + 1, hn⟩) (wblk0 V c ⟨m + 1, hn⟩) _ p q).trans ?_
      rw [step_chunk0 V c ⟨m + 1, hn⟩ p q r cc hr hc]
      show (accAt0 V c m _ : S1024x512.Idx → EReal) (ix2 p q) + chunk0 _ _ r cc ((m + 1) % 4) = _
      rw [ih (Nat.lt_of_succ_lt hn) p q r cc (by omega) (by omega), Finset.sum_range_succ _ ((m + 1) % 4),
        show (m + 1) % 4 = m % 4 + 1 by omega]

/-- After the last step of a block the scratch holds the whole contraction. -/
theorem accAt0_last (c : Dev nD) (t : Fin cfg0.N) (h3 : t.val % 4 = 3) (j : S1024x512.Idx) (r : Fin 8192) (cc : Fin 4096)
    (hr : r.val = t.val / 32 * 1024 + (j 0).val) (hc : cc.val = t.val / 4 % 8 * 512 + (j 1).val) :
    (accAt0 V c t.val t.isLt : S1024x512.Idx → EReal) j = ∑ k : Fin 4096, xarr0 V c (ix2 r k) * warr0 V c (ix2 k cc) := by
  refine (congrArg (fun i => (accAt0 V c t.val t.isLt : S1024x512.Idx → EReal) i) (eq_ix2 j)).trans ?_
  refine (accAt0_apply V c t.val t.isLt (j 0) (j 1) r cc hr hc).trans ?_
  rw [h3]
  exact sum_chunk0 _ _ r cc

/-! ## From the blocks to the array -/

/-- What a point that writes back writes is its block of one half of the matrix product. -/
theorem flushed0_eq (c : Dev nD) (t : Fin cfg0.N) (hf : (cfg0.win 2).flush t = true) :
    (dat0 (F := Ideal) V c).flushed 2 t = ((cfg0.win 2).blk t).view.read (Elt Ideal) (Cert.Spec.Zfun (V c main_v0) (V c main_arg3)) := by
  have h3 : t.val % 4 = 3 := (flush0_2 t).mp hf
  obtain ⟨-, -, -, -, e0, e1⟩ := idx_facts0 t
  show (cfg0.win 2).cut (grid0.coords t) ((dat0 (F := Ideal) V c).after 2 t) = _
  rw [after0_2]
  funext j
  show (k0_pay3 (accAt0 V c t.val t.isLt) : S1024x512.Idx → EReal) j = Cert.Spec.Zfun (xarr0 V c) (warr0 V c) (((cfg0.win 2).blk t).view.emb j)
  refine (k0_pay3_apply _ j).trans ?_
  unfold Cert.Spec.Zfun
  refine congrArg (fun z => Cert.Spec.half * z) ?_
  refine accAt0_last V c t h3 j _ _ ?_ ?_
  · show win0_2.index t 0 * 1024 + 1 * (j 0).val = _; rw [e0]; omega
  · show win0_2.index t 1 * 512 + 1 * (j 1).val = _; rw [e1]; omega

/-- An index of the array is in point t's block iff each coordinate is in the block's range on its axis. -/
theorem mem_blk0 (t : Fin cfg0.N) (i : S8192x4096.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v18).slice (win0_2.rect t)).set ↔ _
  rw [View.set_slice_whole, Rect.mem_set_unit]
  exact Iff.rfl

/-- Every entry of the array lies in the block of the last step of its block row and block column. -/
theorem cover0 (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 256 := N_0
  let t : Fin cfg0.N := ⟨((i 0).val / 1024 * 8 + (i 1).val / 512) * 4 + 3, by rw [hN]; omega⟩
  have ht : t.val = ((i 0).val / 1024 * 8 + (i 1).val / 512) * 4 + 3 := rfl
  obtain ⟨-, -, -, -, e0, e1⟩ := idx_facts0 t
  refine ⟨t, (flush0_2 t).mpr (by rw [ht]; omega), ?_⟩
  rw [mem_blk0]
  intro a
  match a with
  | ⟨0, _⟩ => show win0_2.index t 0 * 1024 ≤ (i 0).val ∧ (i 0).val < win0_2.index t 0 * 1024 + 1024; rw [e0, ht]; omega
  | ⟨1, _⟩ => show win0_2.index t 1 * 512 ≤ (i 1).val ∧ (i 1).val < win0_2.index t 1 * 512 + 512; rw [e1, ht]; omega

/-- The region leaves one half of the matrix product in its output array. -/
theorem arrAt0_eq (c : Dev nD) :
    (dat0 (F := Ideal) V c).arrAt 2 cfg0.N = Cert.Spec.Zfun (V c main_v0) (V c main_arg3) :=
  (dat0 (F := Ideal) V c).arrAt_eq_of_cover 2 (Cert.Spec.Zfun (V c main_v0) (V c main_arg3)) (flushed0_eq V c) cover0

end Cert.KernelIdeal.Hand

end
-- ==== Proof.KI.Value1.lean ====
/-
  What the second matrix product's region leaves in its output array, as one function of the arrays it reads.

  The output [8192, 4096] is tiled by blocks [1024, 512]; the contraction axis of length 2048 is walked in two steps of
  1024. Point t of the grid is step t mod 2 of the output block in block row t / 16 and block column (t / 2) mod 8. At
  step 0 the scratch becomes zero plus the product of the left operand's block (rows of the block row, columns 0..1023)
  with the right operand's block (rows 0..1023, columns of the block column); at step 1 it gains the product over the
  columns and rows 1024..2047. So after step 1 the scratch entry (p, q) is the whole sum over the 2048 positions of the
  contraction axis for the array entry (1024·(t/16) + p, 512·((t/2) mod 8) + q): a sum over 2048 positions splits into
  the sum over the first 1024 and the sum over the last 1024, and nothing else is used of the extended reals beyond
  0 + x = x. The stored epilogue is pointwise in the first product's block, the scratch, the noise block and the row
  vector's block, the last repeated down the rows; so the block written back at step 1 is the block of the target
  function, and the blocks written back at the step-1 points tile the array.
-/
import proofs.«125389_j10041633538618_1_alg».proof.Proof.KI.Dat1
import proofs.«125389_j10041633538618_1_alg».proof.Proof.SpecK
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The body's arithmetic at an index -/

/-- The zero block at an index. -/
theorem zero1_apply (p : Fin 1024) (q : Fin 512) : k1_pay1 (F := Ideal) (ix2 p q) = 0 := by
  unfold k1_pay1
  simp only [shapeCast_self]
  show Ideal.ofBits .f32 0x00000000#32 = 0
  exact Ideal.ofBits_zero_f32

/-- The left operand of the block product is read at the output's row; -/
theorem lhs_dot1_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
/-- and at the contraction position as its column. -/
theorem lhs_dot1_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
/-- The right operand is read at the contraction position as its row; -/
theorem rhs_dot1_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
/-- and at the output's column. -/
theorem rhs_dot1_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The block product into the zero accumulator at (p, q): the sum over the block's 1024 contraction positions. -/
theorem blockDot1_apply (x : FVec Ideal S1024x1024 .bf16) (w : FVec Ideal S1024x512 .bf16) (p : Fin 1024) (q : Fin 512) :
    matmul dot_S1024x1024_S1024x512_S1024x512_1_0_0_1_n_n none x w (constant S1024x512 .f32 0x00000000#32) (ix2 p q)
      = ∑ k : Fin 1024, x (ix2 p k) * w (ix2 k q) := by
  simp only [matmul]
  rw [Ideal.matmul_constant_zero_apply, ← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 p q) ((ValueIdx.contrEquiv1 dot_S1024x1024_S1024x512_S1024x512_1_0_0_1_n_n 1024 rfl rfl).symm k) = ix2 p k := funext fun a => Fin.ext (by
    match a with
    | ⟨0, _⟩ => exact lhs_dot1_0 _ _
    | ⟨1, _⟩ => exact (lhs_dot1_1 _ _).trans hk)
  have er : dot_S1024x1024_S1024x512_S1024x512_1_0_0_1_n_n.rhsIdx (ix2 p q) ((ValueIdx.contrEquiv1 dot_S1024x1024_S1024x512_S1024x512_1_0_0_1_n_n 1024 rfl rfl).symm k) = ix2 k q := funext fun a => Fin.ext (by
    match a with
    | ⟨0, _⟩ => exact (rhs_dot1_0 _ _).trans hk
    | ⟨1, _⟩ => exact rhs_dot1_1 _ _)
  rw [el, er]

/-- One accumulation step at (p, q): what was there plus the block product (a change of float format is the identity). -/
theorem step1_apply (x : Vec Ideal S1024x1024 .f32) (w : Vec Ideal S1024x512 .f32) (s : Vec Ideal S1024x512 .f32) (p : Fin 1024) (q : Fin 512) :
    k1_pay2 x w s (ix2 p q) = s (ix2 p q) + ∑ k : Fin 1024, x (ix2 p k) * w (ix2 k q) := by
  unfold k1_pay2
  simp only [shapeCast_self]
  refine (ValueIdx.addf_apply _ _ _).trans ?_
  refine congrArg (s (ix2 p q) + ·) ?_
  exact blockDot1_apply _ _ p q

/-- The epilogue at (p, q): pointwise, with the row vector's one row read at column q. -/
theorem epi1_apply (z a n : Vec Ideal S1024x512 .f32) (cv : Vec Ideal S1x512 .f32) (p : Fin 1024) (q : Fin 512) :
    k1_pay3 z a n cv (ix2 p q)
      = Cert.Spec.unit * Ideal.tanh (((z (ix2 p q) + Cert.Spec.half * a (ix2 p q)) + n (ix2 p q) * Cert.Spec.tenth) + cv (ix2 (0 : Fin 1) q)) := by
  unfold k1_pay3
  simp only [shapeCast_self]
  have hb := ValueIdx.broadcastTo_1b_ab_apply (a := 1024) (b := 512) cv broadcasts_S1x512_S1024x512 p q
  show Ideal.ofBits .f32 0x3F800000#32 * Ideal.tanh (((z (ix2 p q) + Ideal.ofBits .f32 0x3F000000#32 * a (ix2 p q)) + n (ix2 p q) * Ideal.ofBits .f32 0x3DCCCCCD#32) + broadcastTo S1024x512 cv broadcasts_S1x512_S1024x512 (ix2 p q)) = _
  rw [hb]

/-- A sum over 2048 positions is the sum over the first 1024 plus the sum over the last 1024. -/
theorem sum_two_halves (f : Fin 2048 → EReal) :
    ∑ k : Fin 2048, f k
      = (∑ k : Fin 1024, f ⟨0 * 1024 + k.val, by have := k.isLt; omega⟩) + ∑ k : Fin 1024, f ⟨1 * 1024 + k.val, by have := k.isLt; omega⟩ := by
  have h := Fin.sum_univ_add (M := EReal) (a := 1024) (b := 1024) (fun k : Fin (1024 + 1024) => f k)
  refine h.trans (congrArg₂ (· + ·) (Finset.sum_congr rfl fun k _ => congrArg f (Fin.ext ?_)) (Finset.sum_congr rfl fun k _ => congrArg f (Fin.ext ?_)))
  · show k.val = 0 * 1024 + k.val
    omega
  · show 1024 + k.val = 1 * 1024 + k.val
    omega

/-! ## The windows' blocks read in the arrays -/

variable (V : (c : Dev nD) → (b : Ref sig .tc) → Buf (Elt Ideal) ((c : Thread nD τ).loc b))

/-- The windows' index maps over the grid: point t is in block row t / 16, block column (t / 2) mod 8, step t mod 2. -/
theorem idx_facts1 : ∀ t : Fin cfg1.N,
    win1_0.index t (0 : Fin 2) = t.val / 16 ∧ win1_0.index t (1 : Fin 2) = t.val % 2
    ∧ win1_1.index t (0 : Fin 2) = t.val % 2 ∧ win1_1.index t (1 : Fin 2) = t.val / 2 % 8
    ∧ win1_2.index t (0 : Fin 2) = t.val / 16 ∧ win1_2.index t (1 : Fin 2) = t.val / 2 % 8
    ∧ win1_3.index t (0 : Fin 2) = t.val / 16 ∧ win1_3.index t (1 : Fin 2) = t.val / 2 % 8
    ∧ win1_4.index t (0 : Fin 2) = 0 ∧ win1_4.index t (1 : Fin 2) = t.val / 2 % 8
    ∧ win1_5.index t (0 : Fin 2) = t.val / 16 ∧ win1_5.index t (1 : Fin 2) = t.val / 2 % 8 :=
  (by decide +kernel : ∀ t : Fin grid1.N, _)

/-- The left operand's block at point t, entry (p, k): the array at row 1024·(t/16) + p, column 1024·(t mod 2) + k. -/
theorem xblk1_apply (c : Dev nD) (t : Fin cfg1.N) (p k : Fin 1024) (i : Cert.Spec.SF2.Idx)
    (h0 : (i 0).val = t.val / 16 * 1024 + p.val) (h1 : (i 1).val = t.val % 2 * 1024 + k.val) :
    xblk1 V c t (ix2 p k) = V c main_v1 i := by
  obtain ⟨e0, e1, -⟩ := idx_facts1 t
  unfold xblk1 iblk1
  rw [View.read_apply]
  show V c main_v1 (((cfg1.win 0).blk t).view.emb (ix2 p k)) = V c main_v1 i
  refine congrArg (V c main_v1) (funext fun a => Fin.ext ?_)
  match a with
  | ⟨0, _⟩ => show win1_0.index t (0 : Fin 2) * 1024 + 1 * p.val = (i 0).val; omega
  | ⟨1, _⟩ => show win1_0.index t (1 : Fin 2) * 1024 + 1 * k.val = (i 1).val; omega

/-- The right operand's block at point t, entry (k, q): the array at row 1024·(t mod 2) + k, column 512·((t/2) mod 8) + q. -/
theorem wblk1_apply (c : Dev nD) (t : Fin cfg1.N) (k : Fin 1024) (q : Fin 512) (i : Cert.Spec.SW2.Idx)
    (h0 : (i 0).val = t.val % 2 * 1024 + k.val) (h1 : (i 1).val = t.val / 2 % 8 * 512 + q.val) :
    wblk1 V c t (ix2 k q) = V c main_arg5 i := by
  obtain ⟨-, -, e0, e1, -⟩ := idx_facts1 t
  unfold wblk1 iblk1
  rw [View.read_apply]
  show V c main_arg5 (((cfg1.win 1).blk t).view.emb (ix2 k q)) = V c main_arg5 i
  refine congrArg (V c main_arg5) (funext fun a => Fin.ext ?_)
  match a with
  | ⟨0, _⟩ => show win1_1.index t (0 : Fin 2) * 1024 + 1 * k.val = (i 0).val; omega
  | ⟨1, _⟩ => show win1_1.index t (1 : Fin 2) * 512 + 1 * q.val = (i 1).val; omega

/-- The first product's block at point t, entry (p, q): the array at row 1024·(t/16) + p, column 512·((t/2) mod 8) + q. -/
theorem zblk1_apply (c : Dev nD) (t : Fin cfg1.N) (p : Fin 1024) (q : Fin 512) (i : Cert.Spec.SF1.Idx)
    (h0 : (i 0).val = t.val / 16 * 1024 + p.val) (h1 : (i 1).val = t.val / 2 % 8 * 512 + q.val) :
    zblk1 V c t (ix2 p q) = V c main_v18 i := by
  obtain ⟨-, -, -, -, e0, e1, -⟩ := idx_facts1 t
  unfold zblk1 iblk1
  rw [View.read_apply]
  show V c main_v18 (((cfg1.win 2).blk t).view.emb (ix2 p q)) = V c main_v18 i
  refine congrArg (V c main_v18) (funext fun a => Fin.ext ?_)
  match a with
  | ⟨0, _⟩ => show win1_2.index t (0 : Fin 2) * 1024 + 1 * p.val = (i 0).val; omega
  | ⟨1, _⟩ => show win1_2.index t (1 : Fin 2) * 512 + 1 * q.val = (i 1).val; omega

/-- The noise block at point t, entry (p, q): the same place of the noise array. -/
theorem nblk1_apply (c : Dev nD) (t : Fin cfg1.N) (p : Fin 1024) (q : Fin 512) (i : Cert.Spec.SF1.Idx)
    (h0 : (i 0).val = t.val / 16 * 1024 + p.val) (h1 : (i 1).val = t.val / 2 % 8 * 512 + q.val) :
    nblk1 V c t (ix2 p q) = V c main_v2 i := by
  obtain ⟨-, -, -, -, -, -, e0, e1, -⟩ := idx_facts1 t
  unfold nblk1 iblk1
  rw [View.read_apply]
  show V c main_v2 (((cfg1.win 3).blk t).view.emb (ix2 p q)) = V c main_v2 i
  refine congrArg (V c main_v2) (funext fun a => Fin.ext ?_)
  match a with
  | ⟨0, _⟩ => show win1_3.index t (0 : Fin 2) * 1024 + 1 * p.val = (i 0).val; omega
  | ⟨1, _⟩ => show win1_3.index t (1 : Fin 2) * 512 + 1 * q.val = (i 1).val; omega

/-- The row vector's block at point t, entry (0, q): the vector at column 512·((t/2) mod 8) + q. -/
theorem cblk1_apply (c : Dev nD) (t : Fin cfg1.N) (q : Fin 512) (i : Cert.Spec.SRow.Idx)
    (h0 : (i 0).val = 0) (h1 : (i 1).val = t.val / 2 % 8 * 512 + q.val) :
    cblk1 V c t (ix2 (0 : Fin 1) q) = V c main_v17 i := by
  obtain ⟨-, -, -, -, -, -, -, -, e0, e1, -⟩ := idx_facts1 t
  unfold cblk1 iblk1
  rw [View.read_apply]
  show V c main_v17 (((cfg1.win 4).blk t).view.emb (ix2 (0 : Fin 1) q)) = V c main_v17 i
  refine congrArg (V c main_v17) (funext fun a => Fin.ext ?_)
  match a with
  | ⟨0, _⟩ => show win1_4.index t (0 : Fin 2) * 1 + 1 * 0 = (i 0).val; omega
  | ⟨1, _⟩ => show win1_4.index t (1 : Fin 2) * 512 + 1 * q.val = (i 1).val; omega

/-! ## The scratch after the last step of a block -/

/-- The two operands' arrays, as the region finds them. -/
abbrev lhs1 (c : Dev nD) : Cert.Spec.SF2.Idx → EReal := V c main_v1
abbrev rhs1 (c : Dev nD) : Cert.Spec.SW2.Idx → EReal := V c main_arg5

/-- After step 1 of a block the scratch entry (p, q) is the whole contraction for the array entry i it belongs to. -/
theorem acc_last1 (c : Dev nD) (t : Fin cfg1.N) (ht : t.val % 2 = 1) (p : Fin 1024) (q : Fin 512) (i : Cert.Spec.SF1.Idx)
    (h0 : (i 0).val = t.val / 16 * 1024 + p.val) (h1 : (i 1).val = t.val / 2 % 8 * 512 + q.val) :
    accAt1 V c t.val t.isLt (ix2 p q) = ∑ k : Fin 2048, lhs1 V c (ix2 (i 0) k) * rhs1 V c (ix2 k (i 1)) := by
  have hlt : t.val - 1 < cfg1.N := Nat.lt_of_le_of_lt (Nat.sub_le _ _) t.isLt
  have hprev : accAt1 V c (t.val - 1) hlt = acc1 (xblk1 V c ⟨t.val - 1, hlt⟩) (wblk1 V c ⟨t.val - 1, hlt⟩) (k1_pay1 (F := Ideal)) :=
    accAt1_first V c ⟨t.val - 1, hlt⟩ (by show (t.val - 1) % 2 = 0; omega)
  rw [accAt1_next V c t (by omega)]
  refine (step1_apply (xblk1 V c t) (wblk1 V c t) (accAt1 V c (t.val - 1) hlt) p q).trans ?_
  rw [hprev]
  refine (congrArg (· + ∑ k : Fin 1024, xblk1 V c t (ix2 p k) * wblk1 V c t (ix2 k q))
    (step1_apply (xblk1 V c ⟨t.val - 1, hlt⟩) (wblk1 V c ⟨t.val - 1, hlt⟩) (k1_pay1 (F := Ideal)) p q)).trans ?_
  rw [zero1_apply, zero_add]
  refine Eq.trans ?_ (sum_two_halves (fun k : Fin 2048 => lhs1 V c (ix2 (i 0) k) * rhs1 V c (ix2 k (i 1)))).symm
  refine congrArg₂ (· + ·) (Finset.sum_congr rfl fun k _ => ?_) (Finset.sum_congr rfl fun k _ => ?_)
  · have hk : 0 * 1024 + k.val < 2048 := by have := k.isLt; omega
    exact congrArg₂ (· * ·)
      (xblk1_apply V c ⟨t.val - 1, hlt⟩ p k (ix2 (i 0) ⟨0 * 1024 + k.val, hk⟩)
        (by show (i 0).val = (t.val - 1) / 16 * 1024 + p.val; omega) (by show 0 * 1024 + k.val = (t.val - 1) % 2 * 1024 + k.val; omega))
      (wblk1_apply V c ⟨t.val - 1, hlt⟩ k q (ix2 ⟨0 * 1024 + k.val, hk⟩ (i 1))
        (by show 0 * 1024 + k.val = (t.val - 1) % 2 * 1024 + k.val; omega) (by show (i 1).val = (t.val - 1) / 2 % 8 * 512 + q.val; omega))
  · have hk : 1 * 1024 + k.val < 2048 := by have := k.isLt; omega
    exact congrArg₂ (· * ·)
      (xblk1_apply V c t p k (ix2 (i 0) ⟨1 * 1024 + k.val, hk⟩)
        (by show (i 0).val = t.val / 16 * 1024 + p.val; omega) (by show 1 * 1024 + k.val = t.val % 2 * 1024 + k.val; omega))
      (wblk1_apply V c t k q (ix2 ⟨1 * 1024 + k.val, hk⟩ (i 1))
        (by show 1 * 1024 + k.val = t.val % 2 * 1024 + k.val; omega) (by show (i 1).val = t.val / 2 % 8 * 512 + q.val; omega))

/-! ## What a last step stores is the target function's block -/

/-- The block stored at a last step, entry (p, q), is the target function at the array entry it belongs to. -/
theorem out1At_apply (c : Dev nD) (t : Fin cfg1.N) (ht : t.val % 2 = 1) (p : Fin 1024) (q : Fin 512) (i : Cert.Spec.SF1.Idx)
    (h0 : (i 0).val = t.val / 16 * 1024 + p.val) (h1 : (i 1).val = t.val / 2 % 8 * 512 + q.val) :
    out1At V c t (ix2 p q) = Cert.Spec.Yfun (V c main_v1) (V c main_arg5) (V c main_v18) (V c main_v2) (V c main_v17) i := by
  refine (epi1_apply (zblk1 V c t) (accAt1 V c t.val t.isLt) (nblk1 V c t) (cblk1 V c t) p q).trans ?_
  unfold Cert.Spec.Yfun
  rw [zblk1_apply V c t p q i h0 h1, nblk1_apply V c t p q i h0 h1, acc_last1 V c t ht p q i h0 h1,
    cblk1_apply V c t q (ix2 0 (i 1)) rfl h1]

/-- What a point that writes back writes is the target function's block there. -/
theorem flushed1_eq (c : Dev nD) (t : Fin cfg1.N) (hf : (cfg1.win 5).flush t = true) :
    (dat1 (F := Ideal) V c).flushed 5 t
      = ((cfg1.win 5).blk t).view.read (Elt Ideal) (Cert.Spec.Yfun (V c main_v1) (V c main_arg5) (V c main_v18) (V c main_v2) (V c main_v17)) := by
  have ht : t.val % 2 = 1 := (flush1_5 t).mp hf
  obtain ⟨-, -, -, -, -, -, -, -, -, -, e0, e1⟩ := idx_facts1 t
  show (cfg1.win 5).cut (grid1.coords t) ((dat1 (F := Ideal) V c).after 5 t) = _
  rw [after1_5]
  funext y
  obtain ⟨p, q, rfl⟩ : ∃ (p : Fin 1024) (q : Fin 512), y = ix2 p q := ⟨y 0, y 1, eq_ix2 y⟩
  rw [View.read_apply]
  exact out1At_apply V c t ht p q _
    (by show win1_5.index t (0 : Fin 2) * 1024 + 1 * p.val = t.val / 16 * 1024 + p.val; omega)
    (by show win1_5.index t (1 : Fin 2) * 512 + 1 * q.val = t.val / 2 % 8 * 512 + q.val; omega)

/-! ## The blocks written back tile the array -/

/-- An index of the output array is in point t's block iff each coordinate is in the block's range on its axis. -/
theorem mem_blk1_5 (t : Fin cfg1.N) (i : S8192x4096.Idx) :
    i ∈ ((cfg1.win 5).blk t).view.set ↔ ∀ a : Fin 2, win1_5.index t a * S1024x512.size a ≤ (i a).val ∧ (i a).val < win1_5.index t a * S1024x512.size a + S1024x512.size a := by
  show i ∈ ((View.whole main_v19).slice (win1_5.rect t)).set ↔ _
  rw [View.set_slice_whole, Rect.mem_set_unit]
  exact Iff.rfl

/-- Every index of the output array lies in the block of the last step of its block row and block column. -/
theorem cover1_5 (i : S8192x4096.Idx) : ∃ t : Fin cfg1.N, (cfg1.win 5).flush t = true ∧ i ∈ ((cfg1.win 5).blk t).view.set := by
  have hi0 : (i 0).val < 8192 := (i 0).isLt
  have hi1 : (i 1).val < 4096 := (i 1).isLt
  have hN : cfg1.N = 128 := N_1
  let t : Fin cfg1.N := ⟨(i 0).val / 1024 * 16 + (i 1).val / 512 * 2 + 1, by rw [hN]; omega⟩
  have htv : t.val = (i 0).val / 1024 * 16 + (i 1).val / 512 * 2 + 1 := rfl
  obtain ⟨-, -, -, -, -, -, -, -, -, -, e0, e1⟩ := idx_facts1 t
  refine ⟨t, (flush1_5 t).mpr (by omega), ?_⟩
  rw [mem_blk1_5]
  intro a
  match a with
  | ⟨0, _⟩ => show win1_5.index t (0 : Fin 2) * 1024 ≤ (i 0).val ∧ (i 0).val < win1_5.index t (0 : Fin 2) * 1024 + 1024; omega
  | ⟨1, _⟩ => show win1_5.index t (1 : Fin 2) * 512 ≤ (i 1).val ∧ (i 1).val < win1_5.index t (1 : Fin 2) * 512 + 512; omega

/-! ## The output array after the region -/

/-- After the region's last point the output array holds the target function of the arrays the region read. -/
theorem arrAt1_eq (V : (c : Dev nD) → (b : Ref sig .tc) → Buf (Elt Ideal) ((c : Thread nD τ).loc b)) (c : Dev nD) :
    (dat1 (F := Ideal) V c).arrAt 5 cfg1.N = Cert.Spec.Yfun (V c main_v1) (V c main_arg5) (V c main_v18) (V c main_v2) (V c main_v17) :=
  (dat1 (F := Ideal) V c).arrAt_eq_of_cover 5 (Cert.Spec.Yfun (V c main_v1) (V c main_arg5) (V c main_v18) (V c main_v2) (V c main_v17))
    (fun t hf => flushed1_eq V c t hf) cover1_5

end Cert.KernelIdeal.Hand

end
-- ==== Proof.KI.Glue.lean ====
/-
  The run's result buffer, as one function of the launch contents.

  The program is a stretch of host operations, two kernel regions, and one last host operation. The first stretch
  flattens x1, x2 and the noise from [4, 2048, n] to [8192, n] (row a·2048 + s is the row (a, s)), and forms the
  per-feature vector  0.9·bucket − 0.1·|prev| + b + (1/2)·b1 + (1/2)·b2  as one row [1, 4096]. The first region leaves
  Z = (1/2)·(X1·W1); the second leaves  1 · tanh( Z + (1/2)·(X2·W2) + N·0.1 + C )  with C the row repeated; the last
  operation reads that back as [4, 2048, 4096].

  Given what each region leaves as a function of what it finds, the result buffer ends at the kernel's result `Gk` of
  the ten argument arrays. Every step is a reading of an array at an index: a reshape read at (a, s, k) is the operand
  at the index of the same row-major position, a broadcast constant is the constant, the pointwise operations are
  pointwise. The two sides then agree sum for sum and term for term; no law of arithmetic is used.
-/
import proofs.«125389_j10041633538618_1_alg».proof.Proof.KI.Run
import proofs.«125389_j10041633538618_1_alg».proof.Proof.SpecK
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## Layout: the rows of a [4, 2048, n] array laid end to end -/

/-- Row `a * 2048 + s` of the flattened array. -/
abbrev flatRow (a : Fin 4) (s : Fin 2048) : Fin 8192 := ⟨a.val * 2048 + s.val, by omega⟩

/-- A [4, 2048, n] array read as [8192, n]: row `a * 2048 + s` is the row (a, s). -/
theorem shapeCast_flatten_apply {n : ℕ} (x : (⟨3, ![4, 2048, n]⟩ : Shape).Idx → EReal)
    (h : (⟨3, ![4, 2048, n]⟩ : Shape).ShapeCasts ⟨2, ![8192, n]⟩) (a : Fin 4) (s : Fin 2048) (k : Fin n) :
    shapeCast ⟨2, ![8192, n]⟩ x h (ix2 (flatRow a s) k) = x (ix3 a s k) :=
  shapeCast_apply x h _ _ (by rw [Shape.rowMajor_val_two, Shape.rowMajor_val_three]; rfl)

/-- An [8192, n] array read as [4, 2048, n]: the row (a, s) is row `a * 2048 + s`. -/
theorem shapeCast_unflatten_apply {n : ℕ} (y : (⟨2, ![8192, n]⟩ : Shape).Idx → EReal)
    (h : (⟨2, ![8192, n]⟩ : Shape).ShapeCasts ⟨3, ![4, 2048, n]⟩) (a : Fin 4) (s : Fin 2048) (k : Fin n) :
    shapeCast ⟨3, ![4, 2048, n]⟩ y h (ix3 a s k) = y (ix2 (flatRow a s) k) :=
  shapeCast_apply y h _ _ (by rw [Shape.rowMajor_val_two, Shape.rowMajor_val_three]; rfl)

/-- A [1, 1, n] array read as [n]. -/
theorem shapeCast_squeeze_apply {n : ℕ} (p : (⟨3, ![1, 1, n]⟩ : Shape).Idx → EReal)
    (h : (⟨3, ![1, 1, n]⟩ : Shape).ShapeCasts ⟨1, ![n]⟩) (o : Fin n) :
    shapeCast ⟨1, ![n]⟩ p h (ix1 o) = p (ix3 0 0 o) :=
  shapeCast_apply p h _ _ (by
    rw [Shape.rowMajor_val_one, Shape.rowMajor_val_three]
    show ((0 : ℕ) * 1 + 0) * n + o.val = o.val
    omega)

/-! ## The per-feature vector of the first host stretch -/

/-- What the first host stretch leaves in the per-feature buffer, as a function of the launch contents:
    0.9·bucket − 0.1·|prev| + b + (1/2)·b1 + (1/2)·b2, feature by feature. -/
def featVec (b1 b2 bb bucket : S4096.Idx → EReal) (prev : S1x1x4096.Idx → EReal) : S4096.Idx → EReal :=
  addf
    (addf
      (addf
        (subf
          (mulf (broadcastInDim S4096 ![] bcast_S_S4096 (constant (F := Ideal) S_ .f32 0x3F666666#32)) bucket)
          (mulf (broadcastInDim S4096 ![] bcast_S_S4096 (constant (F := Ideal) S_ .f32 0x3DCCCCCD#32))
            (Host.absf (shapeCast S4096 prev shapeCasts_S1x1x4096_S4096))))
        bb)
      (mulf (broadcastInDim S4096 ![] bcast_S_S4096 (constant (F := Ideal) S_ .f32 0x3F000000#32)) b1))
    (mulf (broadcastInDim S4096 ![] bcast_S_S4096 (constant (F := Ideal) S_ .f32 0x3F000000#32)) b2)

/-- Read at feature `o` it is the specification's per-feature term. -/
theorem featVec_apply (b1 b2 bb bucket : S4096.Idx → EReal) (prev : S1x1x4096.Idx → EReal) (o : Fin 4096) :
    featVec b1 b2 bb bucket prev (ix1 o) = Cert.Spec.featK b1 b2 bb bucket prev o := by
  have hp : shapeCast S4096 prev shapeCasts_S1x1x4096_S4096 (ix1 o) = prev (ix3 0 0 o) := shapeCast_squeeze_apply prev _ o
  unfold featVec Cert.Spec.featK Cert.Spec.absPrev
  simp only [addf_apply, subf_apply, mulf_apply]
  show _ - _ * max (shapeCast S4096 prev shapeCasts_S1x1x4096_S4096 (ix1 o)) (-(shapeCast S4096 prev shapeCasts_S1x1x4096_S4096 (ix1 o))) + _ + _ + _ = _
  rw [hp]
  rfl

/-! ## The composed regions, index by index -/

/-- The two regions' results composed over the flattened arrays, read back as [4, 2048, 4096], are the kernel's result:
    at (a, s, o) both are  1 · tanh( ((1/2)·P1 + (1/2)·P2 + noise·0.1) + the per-feature term ),  sum for sum. -/
theorem composed_eq_Gk (x1 : S4x2048x4096.Idx → EReal) (x2 : S4x2048x2048.Idx → EReal) (nz : S4x2048x4096.Idx → EReal)
    (W1 : S4096x4096.Idx → EReal) (b1 : S4096.Idx → EReal) (W2 : S2048x4096.Idx → EReal) (b2 bb bucket : S4096.Idx → EReal)
    (prev : S1x1x4096.Idx → EReal) :
    shapeCast S4x2048x4096
      (Cert.Spec.Yfun (shapeCast S8192x2048 x2 shapeCasts_S4x2048x2048_S8192x2048) W2
        (Cert.Spec.Zfun (shapeCast S8192x4096 x1 shapeCasts_S4x2048x4096_S8192x4096) W1)
        (shapeCast S8192x4096 nz shapeCasts_S4x2048x4096_S8192x4096)
        (shapeCast S1x4096 (featVec b1 b2 bb bucket prev) shapeCasts_S4096_S1x4096))
      shapeCasts_S8192x4096_S4x2048x4096
    = Cert.Spec.Gk x1 x2 nz W1 b1 W2 b2 bb bucket prev := by
  funext i
  obtain ⟨a, s, o, rfl⟩ : ∃ a s o, i = ix3 a s o := ⟨i 0, i 1, i 2, eq_ix3 i⟩
  rw [shapeCast_unflatten_apply]
  unfold Cert.Spec.Gk Cert.Spec.kerArg Cert.Spec.dot1 Cert.Spec.dot2 Cert.Spec.Yfun Cert.Spec.Zfun
  show Cert.Spec.unit * Ideal.tanh
      (((Cert.Spec.half * ∑ k : Fin 4096, shapeCast S8192x4096 x1 shapeCasts_S4x2048x4096_S8192x4096 (ix2 (flatRow a s) k) * W1 (ix2 k o)
          + Cert.Spec.half * ∑ k : Fin 2048, shapeCast S8192x2048 x2 shapeCasts_S4x2048x2048_S8192x2048 (ix2 (flatRow a s) k) * W2 (ix2 k o))
          + shapeCast S8192x4096 nz shapeCasts_S4x2048x4096_S8192x4096 (ix2 (flatRow a s) o) * Cert.Spec.tenth)
        + shapeCast S1x4096 (featVec b1 b2 bb bucket prev) shapeCasts_S4096_S1x4096 (ix2 0 o))
    = Cert.Spec.unit * Ideal.tanh
      (((Cert.Spec.half * ∑ k : Fin 4096, x1 (ix3 a s k) * W1 (ix2 k o)
          + Cert.Spec.half * ∑ k : Fin 2048, x2 (ix3 a s k) * W2 (ix2 k o))
          + nz (ix3 a s o) * Cert.Spec.tenth)
        + Cert.Spec.featK b1 b2 bb bucket prev o)
  rw [shapeCast_a_1a_apply, featVec_apply, shapeCast_flatten_apply nz]
  simp only [shapeCast_flatten_apply x1, shapeCast_flatten_apply x2]

variable (m : (ℓ : Loc nD τ sig) → Buf (Elt Ideal) ℓ) (c : Dev nD)

/-! ## The first host stretch, buffer by buffer -/

theorem W1_v0 : W1 m c (Proc.devRef .tc main_v0)
    = shapeCast S8192x4096 (m ((c : Thread nD τ).loc main_arg0)) shapeCasts_S4x2048x4096_S8192x4096 := by
  show StableHlo.after hostOps0 (W0 m c) (Proc.devRef .tc main_v0) = _
  after_results_simp
  rfl

theorem W1_v1 : W1 m c (Proc.devRef .tc main_v1)
    = shapeCast S8192x2048 (m ((c : Thread nD τ).loc main_arg1)) shapeCasts_S4x2048x2048_S8192x2048 := by
  show StableHlo.after hostOps0 (W0 m c) (Proc.devRef .tc main_v1) = _
  after_results_simp
  rfl

theorem W1_v2 : W1 m c (Proc.devRef .tc main_v2)
    = shapeCast S8192x4096 (m ((c : Thread nD τ).loc main_arg2)) shapeCasts_S4x2048x4096_S8192x4096 := by
  show StableHlo.after hostOps0 (W0 m c) (Proc.devRef .tc main_v2) = _
  after_results_simp
  rfl

theorem W1_v17 : W1 m c (Proc.devRef .tc main_v17)
    = shapeCast S1x4096 (featVec (m ((c : Thread nD τ).loc main_arg4)) (m ((c : Thread nD τ).loc main_arg6))
        (m ((c : Thread nD τ).loc main_arg7)) (m ((c : Thread nD τ).loc main_arg8)) (m ((c : Thread nD τ).loc main_arg9)))
        shapeCasts_S4096_S1x4096 := by
  show StableHlo.after hostOps0 (W0 m c) (Proc.devRef .tc main_v17) = _
  after_results_simp
  rfl

theorem W1_arg3 : W1 m c (Proc.devRef .tc main_arg3) = m ((c : Thread nD τ).loc main_arg3) :=
  StableHlo.after_of_writes_sub hostOps0 _ hostOps0_writes (by decide : main_arg3 ∉ hostOps0_W)

theorem W1_arg5 : W1 m c (Proc.devRef .tc main_arg5) = m ((c : Thread nD τ).loc main_arg5) :=
  StableHlo.after_of_writes_sub hostOps0 _ hostOps0_writes (by decide : main_arg5 ∉ hostOps0_W)

/-! ## The last host operation -/

theorem W4_v20 : W4 m c (Proc.devRef .tc main_v20)
    = shapeCast S4x2048x4096 (W3 m c (Proc.devRef .tc main_v19)) shapeCasts_S8192x4096_S4x2048x4096 := by
  show StableHlo.after hostOps2 (W3 m c) (Proc.devRef .tc main_v20) = _
  after_results
  rfl

/-! ## What each region finds in the arrays it reads -/

theorem Ent1_v0 : Ent1 m c main_v0
    = shapeCast S8192x4096 (m ((c : Thread nD τ).loc main_arg0)) shapeCasts_S4x2048x4096_S8192x4096 := W1_v0 m c

theorem Ent1_arg3 : Ent1 m c main_arg3 = m ((c : Thread nD τ).loc main_arg3) := W1_arg3 m c

theorem Ent2_v1 : Ent2 m c main_v1
    = shapeCast S8192x2048 (m ((c : Thread nD τ).loc main_arg1)) shapeCasts_S4x2048x2048_S8192x2048 :=
  (W2_of_ne m c main_v1 (by decide)).trans (W1_v1 m c)

theorem Ent2_arg5 : Ent2 m c main_arg5 = m ((c : Thread nD τ).loc main_arg5) :=
  (W2_of_ne m c main_arg5 (by decide)).trans (W1_arg5 m c)

theorem Ent2_v2 : Ent2 m c main_v2
    = shapeCast S8192x4096 (m ((c : Thread nD τ).loc main_arg2)) shapeCasts_S4x2048x4096_S8192x4096 :=
  (W2_of_ne m c main_v2 (by decide)).trans (W1_v2 m c)

theorem Ent2_v17 : Ent2 m c main_v17
    = shapeCast S1x4096 (featVec (m ((c : Thread nD τ).loc main_arg4)) (m ((c : Thread nD τ).loc main_arg6))
        (m ((c : Thread nD τ).loc main_arg7)) (m ((c : Thread nD τ).loc main_arg8)) (m ((c : Thread nD τ).loc main_arg9)))
        shapeCasts_S4096_S1x4096 :=
  (W2_of_ne m c main_v17 (by decide)).trans (W1_v17 m c)

/-- The first region's result array, as the second region finds it. -/
theorem Ent2_v18
    (h0 : (dat0 (F := Ideal) (Ent1 m) c).arrAt 2 cfg0.N = Cert.Spec.Zfun (Ent1 m c main_v0) (Ent1 m c main_arg3)) :
    Ent2 m c main_v18
      = Cert.Spec.Zfun (shapeCast S8192x4096 (m ((c : Thread nD τ).loc main_arg0)) shapeCasts_S4x2048x4096_S8192x4096)
          (m ((c : Thread nD τ).loc main_arg3)) := by
  refine (W2_arr m c 2).trans (h0.trans ?_)
  rw [Ent1_v0, Ent1_arg3]

/-- The second region's result array at the end of the run. -/
theorem W3_v19
    (h0 : (dat0 (F := Ideal) (Ent1 m) c).arrAt 2 cfg0.N = Cert.Spec.Zfun (Ent1 m c main_v0) (Ent1 m c main_arg3))
    (h1 : (dat1 (F := Ideal) (Ent2 m) c).arrAt 5 cfg1.N = Cert.Spec.Yfun (Ent2 m c main_v1) (Ent2 m c main_arg5) (Ent2 m c main_v18) (Ent2 m c main_v2) (Ent2 m c main_v17)) :
    W3 m c (Proc.devRef .tc main_v19)
      = Cert.Spec.Yfun
          (shapeCast S8192x2048 (m ((c : Thread nD τ).loc main_arg1)) shapeCasts_S4x2048x2048_S8192x2048)
          (m ((c : Thread nD τ).loc main_arg5))
          (Cert.Spec.Zfun (shapeCast S8192x4096 (m ((c : Thread nD τ).loc main_arg0)) shapeCasts_S4x2048x4096_S8192x4096)
            (m ((c : Thread nD τ).loc main_arg3)))
          (shapeCast S8192x4096 (m ((c : Thread nD τ).loc main_arg2)) shapeCasts_S4x2048x4096_S8192x4096)
          (shapeCast S1x4096 (featVec (m ((c : Thread nD τ).loc main_arg4)) (m ((c : Thread nD τ).loc main_arg6))
            (m ((c : Thread nD τ).loc main_arg7)) (m ((c : Thread nD τ).loc main_arg8)) (m ((c : Thread nD τ).loc main_arg9)))
            shapeCasts_S4096_S1x4096) := by
  refine (W3_arr m c 5).trans (h1.trans ?_)
  rw [Ent2_v1, Ent2_arg5, Ent2_v18 m c h0, Ent2_v2, Ent2_v17]

/-! ## The run's result -/

/-- At the end of the run the result buffer holds the kernel's result of the launch contents, given what each region
    leaves as a function of what it finds. -/
theorem kernel_value_of (m : (ℓ : Loc nD τ sig) → Buf (Elt Ideal) ℓ) (c : Dev nD)
    (h0 : (dat0 (F := Ideal) (Ent1 m) c).arrAt 2 cfg0.N = Cert.Spec.Zfun (Ent1 m c main_v0) (Ent1 m c main_arg3))
    (h1 : (dat1 (F := Ideal) (Ent2 m) c).arrAt 5 cfg1.N = Cert.Spec.Yfun (Ent2 m c main_v1) (Ent2 m c main_arg5) (Ent2 m c main_v18) (Ent2 m c main_v2) (Ent2 m c main_v17)) :
    W4 m c (Proc.devRef .tc main_v20) = Cert.Spec.Gk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [W4_v20, W3_v19 m c h0 h1]
  exact composed_eq_Gk _ _ _ _ _ _ _ _ _ _

end Cert.KernelIdeal.Hand
-- ==== Proof.lean ====
/-
  The certificate: the word-level kernel and its idealization run to the end leaving their arguments unchanged, the
  reference does too, the idealization rewrote nothing, and over the extended reals the idealized kernel and the
  reference end with equal results wherever every input entry is finite.

  The kernel computes  tanh( (1/2)·(x1·W1) + (1/2)·(x2·W2) + 0.1·noise + [0.9·bucket − 0.1·|prev| + b + (1/2)·b1 + (1/2)·b2] )
  with two K-blocked matrix products, each accumulated in a scratch block over the last grid axis; the reference computes
  tanh( 0.9·bucket + ((1/2)·((x1·W1 + b1) + (x2·W2 + b2)) + b + 0.1·noise) − 0.1·|prev| ). The blocked sums regroup to
  the whole sums in any commutative monoid; distributing 1/2 and reordering the terms is arithmetic of real numbers,
  which is where finiteness of the inputs is used.
-/
import proofs.«125389_j10041633538618_1_alg».proof.Defs
import proofs.«125389_j10041633538618_1_alg».proof.Proof.Assemble
import proofs.«125389_j10041633538618_1_alg».proof.Proof.KI.Value0
import proofs.«125389_j10041633538618_1_alg».proof.Proof.KI.Value1
import proofs.«125389_j10041633538618_1_alg».proof.Proof.KI.Glue
import Idealize.ShloMosaic.Adequacy
import Idealize.ShloMosaic.Init

noncomputable section

namespace Cert.Proof

open Idealize.ShloMosaic Idealize.SL.Sem

/-- The idealized kernel's result buffer ends at the kernel's arrangement of the argument arrays: the last reshape of
    the second region's result, which reads the first region's result and the host operations' results. -/
theorem kernel_value : Claims.KernelValue := fun m c =>
  Cert.KernelIdeal.Hand.kernel_value_of m c (Cert.KernelIdeal.Hand.arrAt0_eq _ c) (Cert.KernelIdeal.Hand.arrAt1_eq _ c)

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic_of kernel_value⟩

end Cert.Proof

end
